-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_arg2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg2) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S100000x128 : Shape := ⟨2, ![100000, 128]⟩
abbrev S50000x128 : Shape := ⟨2, ![50000, 128]⟩
abbrev S128x1 : Shape := ⟨2, ![128, 1]⟩
abbrev S1 : Shape := ⟨1, ![1]⟩
abbrev S128x128 : Shape := ⟨2, ![128, 128]⟩
abbrev S128 : Shape := ⟨1, ![128]⟩
abbrev S256x256 : Shape := ⟨2, ![256, 256]⟩
abbrev S256 : Shape := ⟨1, ![256]⟩
abbrev S256x128 : Shape := ⟨2, ![256, 128]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S50000x128 : S_.BroadcastsInDim S50000x128 (![] : Fin 0 → Fin S50000x128.rank)
  reducesTo_S50000x128_S_d0_1 : S50000x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_

variable [Facts]

def fn_part5 {F : FTy → Type} [FloatOps F] (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  main_v88

def fn_part4 {F : FTy → Type} [FloatOps F] (main_arg16 : FVec F S256x128 .f32) (main_arg17 : FVec F S128 .f32) (main_arg18 : FVec F S128x1 .f32) (main_arg19 : FVec F S1 .f32) (main_v63 : IVec S_ 1) (main_v67 : IVec S_ 1) : IVec S_ 1 :=
  let main_v68 : IVec S_ 1 := andi main_v63 main_v67
  let main_v69 : FVec F S256x128 .f32 := Host.absf main_arg16
  let main_cst_26 : FVec F S_ .f32 := constant S_ .f32 0x7F800000#32
  let main_v70 : FVec F S256x128 .f32 := broadcastInDim S256x128 ![] bcast_S_S256x128 main_cst_26
  let main_v71 : IVec S256x128 1 := cmpf .olt main_v69 main_v70
  let main_c_27 : IVec S_ 1 := constantI S_ 1 1#1
  let main_v72 : IVec S_ 1 := (fun x v => Host.reduce IntOp.andi x v reducesTo_S256x128_S_d0_1 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x1 .f32 := Host.absf main_arg18
  let main_cst_30 : FVec F S_ .f32 := constant S_ .f32 0x7F800000#32
  let main_v80 : FVec F S128x1 .f32 := broadcastInDim S128x1 ![] bcast_S_S128x1 main_cst_30
  let main_v81 : IVec S128x1 1 := cmpf .olt main_v79 main_v80
  let main_c_31 : IVec S_ 1 := constantI S_ 1 1#1
  let main_v82 : IVec S_ 1 := (fun x v => Host.reduce IntOp.andi x v reducesTo_S128x1_S_d0_1 h_S_) main_v81 main_c_31
  let main_v83 : IVec S_ 1 := andi main_v78 main_v82
  let main_v84 : FVec F S1 .f32 := Host.absf main_arg19
  let main_cst_32 : FVec F S_ .f32 := constant S_ .f32 0x7F800000#32
  fn_part5 (F := F) main_v83 main_v84 main_cst_32

def fn_part3 {F : FTy → Type} [FloatOps F] (main_arg13 : FVec F S128 .f32) (main_arg14 : FVec F S256x256 .f32) (main_arg15 : FVec F S256 .f32) (main_arg16 : FVec F S256x128 .f32) (main_arg17 : FVec F S128 .f32) (main_arg18 : FVec F S128x1 .f32) (main_arg19 : FVec F S1 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S256x256 .f32 := Host.absf main_arg14
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256 .f32 := Host.absf main_arg15
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg16 main_arg17 main_arg18 main_arg19 main_v63 main_v67

def fn_part2 {F : FTy → Type} [FloatOps F] (main_arg9 : FVec F S128x1 .f32) (main_arg10 : FVec F S1 .f32) (main_arg11 : FVec F S1 .f32) (main_arg12 : FVec F S128x128 .f32) (main_arg13 : FVec F S128 .f32) (main_arg14 : FVec F S256x256 .f32) (main_arg15 : FVec F S256 .f32) (main_arg16 : FVec F S256x128 .f32) (main_arg17 : FVec F S128 .f32) (main_arg18 : FVec F S128x1 .f32) (main_arg19 : FVec F S1 .f32) (main_v33 : IVec S_ 1) : IVec S_ 1 :=
  let main_v34 : FVec F S128x1 .f32 := Host.absf main_arg9
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S1 .f32 := Host.absf main_arg11
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_arg14 main_arg15 main_arg16 main_arg17 main_arg18 main_arg19 main_v48 main_v49 main_v50

def fn_part1 {F : FTy → Type} [FloatOps F] (main_arg6 : FVec F S128x1 .f32) (main_arg7 : FVec F S128x1 .f32) (main_arg8 : FVec F S128x1 .f32) (main_arg9 : FVec F S128x1 .f32) (main_arg10 : FVec F S1 .f32) (main_arg11 : FVec F S1 .f32) (main_arg12 : FVec F S128x128 .f32) (main_arg13 : FVec F S128 .f32) (main_arg14 : FVec F S256x256 .f32) (main_arg15 : FVec F S256 .f32) (main_arg16 : FVec F S256x128 .f32) (main_arg17 : FVec F S128 .f32) (main_arg18 : FVec F S128x1 .f32) (main_arg19 : FVec F S1 .f32) (main_v13 : IVec S_ 1) (main_v16 : IVec S50000x128 1) : IVec S_ 1 :=
  let main_c_5 : IVec S_ 1 := constantI S_ 1 1#1
  let main_v17 : IVec S_ 1 := (fun x v => Host.reduce IntOp.andi x v reducesTo_S50000x128_S_d0_1 h_S_) main_v16 main_c_5
  let main_v18 : IVec S_ 1 := andi main_v13 main_v17
  let main_v19 : FVec F S128x1 .f32 := Host.absf main_arg6
  let main_cst_6 : FVec F S_ .f32 := constant S_ .f32 0x7F800000#32
  let main_v20 : FVec F S128x1 .f32 := broadcastInDim S128x1 ![] bcast_S_S128x1 main_cst_6
  let main_v21 : IVec S128x1 1 := cmpf .olt main_v19 main_v20
  let main_c_7 : IVec S_ 1 := constantI S_ 1 1#1
  let main_v22 : IVec S_ 1 := (fun x v => Host.reduce IntOp.andi x v reducesTo_S128x1_S_d0_1 h_S_) main_v21 main_c_7
  let main_v23 : IVec S_ 1 := andi main_v18 main_v22
  let main_v24 : FVec F S128x1 .f32 := Host.absf main_arg7
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S128x1 .f32 := Host.absf main_arg8
  let main_cst_10 : FVec F S_ .f32 := constant S_ .f32 0x7F800000#32
  let main_v30 : FVec F S128x1 .f32 := broadcastInDim S128x1 ![] bcast_S_S128x1 main_cst_10
  let main_v31 : IVec S128x1 1 := cmpf .olt main_v29 main_v30
  let main_c_11 : IVec S_ 1 := constantI S_ 1 1#1
  let main_v32 : IVec S_ 1 := (fun x v => Host.reduce IntOp.andi x v reducesTo_S128x1_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_v33

def fn {F : FTy → Type} [FloatOps F] (main_arg0 : IVec S16384 32) (main_arg1 : IVec S16384 32) (main_arg2 : FVec F S16384 .f32) (main_arg3 : FVec F S100000x128 .f32) (main_arg4 : FVec F S50000x128 .f32) (main_arg5 : FVec F S50000x128 .f32) (main_arg6 : FVec F S128x1 .f32) (main_arg7 : FVec F S128x1 .f32) (main_arg8 : FVec F S128x1 .f32) (main_arg9 : FVec F S128x1 .f32) (main_arg10 : FVec F S1 .f32) (main_arg11 : FVec F S1 .f32) (main_arg12 : FVec F S128x128 .f32) (main_arg13 : FVec F S128 .f32) (main_arg14 : FVec F S256x256 .f32) (main_arg15 : FVec F S256 .f32) (main_arg16 : FVec F S256x128 .f32) (main_arg17 : FVec F S128 .f32) (main_arg18 : FVec F S128x1 .f32) (main_arg19 : FVec F S1 .f32) : IVec S_ 1 :=
  let main_v0 : FVec F S16384 .f32 := Host.absf main_arg2
  let main_cst : FVec F S_ .f32 := constant S_ .f32 0x7F800000#32
  let main_v1 : FVec F S16384 .f32 := broadcastInDim S16384 ![] bcast_S_S16384 main_cst
  let main_v2 : IVec S16384 1 := cmpf .olt main_v0 main_v1
  let main_c : IVec S_ 1 := constantI S_ 1 1#1
  let main_v3 : IVec S_ 1 := (fun x v => Host.reduce IntOp.andi x v reducesTo_S16384_S_d0 h_S_) main_v2 main_c
  let main_v4 : FVec F S100000x128 .f32 := Host.absf main_arg3
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S50000x128 .f32 := Host.absf main_arg4
  let main_cst_2 : FVec F S_ .f32 := constant S_ .f32 0x7F800000#32
  let main_v10 : FVec F S50000x128 .f32 := broadcastInDim S50000x128 ![] bcast_S_S50000x128 main_cst_2
  let main_v11 : IVec S50000x128 1 := cmpf .olt main_v9 main_v10
  let main_c_3 : IVec S_ 1 := constantI S_ 1 1#1
  let main_v12 : IVec S_ 1 := (fun x v => Host.reduce IntOp.andi x v reducesTo_S50000x128_S_d0_1 h_S_) main_v11 main_c_3
  let main_v13 : IVec S_ 1 := andi main_v8 main_v12
  let main_v14 : FVec F S50000x128 .f32 := Host.absf main_arg5
  let main_cst_4 : FVec F S_ .f32 := constant S_ .f32 0x7F800000#32
  let main_v15 : FVec F S50000x128 .f32 := broadcastInDim S50000x128 ![] bcast_S_S50000x128 main_cst_4
  let main_v16 : IVec S50000x128 1 := cmpf .olt main_v14 main_v15
  fn_part1 (F := F) main_arg6 main_arg7 main_arg8 main_arg9 main_arg10 main_arg11 main_arg12 main_arg13 main_arg14 main_arg15 main_arg16 main_arg17 main_arg18 main_arg19 main_v13 main_v16
-- ==== Kernel.lean ====
abbrev S16384 : Shape := ⟨1, ![16384]⟩
abbrev S100000x128 : Shape := ⟨2, ![100000, 128]⟩
abbrev S50000x128 : Shape := ⟨2, ![50000, 128]⟩
abbrev S128x1 : Shape := ⟨2, ![128, 1]⟩
abbrev S1 : Shape := ⟨1, ![1]⟩
abbrev S128x128 : Shape := ⟨2, ![128, 128]⟩
abbrev S128 : Shape := ⟨1, ![128]⟩
abbrev S256x256 : Shape := ⟨2, ![256, 256]⟩
abbrev S256 : Shape := ⟨1, ![256]⟩
abbrev S256x128 : Shape := ⟨2, ![256, 128]⟩
abbrev S_ : Shape := ⟨0, ![]⟩
abbrev S16384x1 : Shape := ⟨2, ![16384, 1]⟩
abbrev S16384x128 : Shape := ⟨2, ![16384, 128]⟩
abbrev S4096x128 : Shape := ⟨2, ![4096, 128]⟩
abbrev S4096x1 : Shape := ⟨2, ![4096, 1]⟩
abbrev S1x128 : Shape := ⟨2, ![1, 128]⟩
abbrev S1x1 : Shape := ⟨2, ![1, 1]⟩
abbrev S4096x256 : Shape := ⟨2, ![4096, 256]⟩
abbrev S1x256 : Shape := ⟨2, ![1, 256]⟩

abbrev nBuf : Space → Nat
  | .hbm => 49
  | .vmem => 22
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S16384, .f32⟩
  | .hbm, ⟨3, _⟩ => ⟨S100000x128, .f32⟩
  | .hbm, ⟨4, _⟩ => ⟨S50000x128, .f32⟩
  | .hbm, ⟨5, _⟩ => ⟨S50000x128, .f32⟩
  | .hbm, ⟨6, _⟩ => ⟨S128x1, .f32⟩
  | .hbm, ⟨7, _⟩ => ⟨S128x1, .f32⟩
  | .hbm, ⟨8, _⟩ => ⟨S128x1, .f32⟩
  | .hbm, ⟨9, _⟩ => ⟨S128x1, .f32⟩
  | .hbm, ⟨10, _⟩ => ⟨S1, .f32⟩
  | .hbm, ⟨11, _⟩ => ⟨S1, .f32⟩
  | .hbm, ⟨12, _⟩ => ⟨S128x128, .f32⟩
  | .hbm, ⟨13, _⟩ => ⟨S128, .f32⟩
  | .hbm, ⟨14, _⟩ => ⟨S256x256, .f32⟩
  | .hbm, ⟨15, _⟩ => ⟨S256, .f32⟩
  | .hbm, ⟨16, _⟩ => ⟨S256x128, .f32⟩
  | .hbm, ⟨17, _⟩ => ⟨S128, .f32⟩
  | .hbm, ⟨18, _⟩ => ⟨S128x1, .f32⟩
  | .hbm, ⟨19, _⟩ => ⟨S1, .f32⟩
  | .hbm, ⟨20, _⟩ => ⟨S_, .i32⟩
  | .hbm, ⟨21, _⟩ => ⟨S16384, .i32⟩
  | .hbm, ⟨22, _⟩ => ⟨S16384, .i1⟩
  | .hbm, ⟨23, _⟩ => ⟨S_, .i32⟩
  | .hbm, ⟨24, _⟩ => ⟨S16384, .i32⟩
  | .hbm, ⟨25, _⟩ => ⟨S16384, .i32⟩
  | .hbm, ⟨26, _⟩ => ⟨S16384, .i32⟩
  | .hbm, ⟨27, _⟩ => ⟨S16384x1, .i32⟩
  | .hbm, ⟨28, _⟩ => ⟨S16384x128, .f32⟩
  | .hbm, ⟨29, _⟩ => ⟨S_, .i32⟩
  | .hbm, ⟨30, _⟩ => ⟨S16384, .i32⟩
  | .hbm, ⟨31, _⟩ => ⟨S16384, .i1⟩
  | .hbm, ⟨32, _⟩ => ⟨S_, .i32⟩
  | .hbm, ⟨33, _⟩ => ⟨S16384, .i32⟩
  | .hbm, ⟨34, _⟩ => ⟨S16384, .i32⟩
  | .hbm, ⟨35, _⟩ => ⟨S16384, .i32⟩
  | .hbm, ⟨36, _⟩ => ⟨S16384x1, .i32⟩
  | .hbm, ⟨37, _⟩ => ⟨S16384x128, .f32⟩
  | .hbm, ⟨38, _⟩ => ⟨S_, .i32⟩
  | .hbm, ⟨39, _⟩ => ⟨S16384, .i32⟩
  | .hbm, ⟨40, _⟩ => ⟨S16384, .i1⟩
  | .hbm, ⟨41, _⟩ => ⟨S_, .i32⟩
  | .hbm, ⟨42, _⟩ => ⟨S16384, .i32⟩
  | .hbm, ⟨43, _⟩ => ⟨S16384, .i32⟩
  | .hbm, ⟨44, _⟩ => ⟨S16384, .i32⟩
  | .hbm, ⟨45, _⟩ => ⟨S16384x1, .i32⟩
  | .hbm, ⟨46, _⟩ => ⟨S16384x128, .f32⟩
  | .hbm, ⟨47, _⟩ => ⟨S16384x1, .f32⟩
  | .hbm, ⟨48, _⟩ => ⟨S16384, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S128x128, .f32⟩
  | .local _ .vmem, ⟨7, _⟩ => ⟨S128, .f32⟩
  | .local _ .vmem, ⟨8, _⟩ => ⟨S128x1, .f32⟩
  | .local _ .vmem, ⟨9, _⟩ => ⟨S128x1, .f32⟩
  | .local _ .vmem, ⟨10, _⟩ => ⟨S128x1, .f32⟩
  | .local _ .vmem, ⟨11, _⟩ => ⟨S128x1, .f32⟩
  | .local _ .vmem, ⟨12, _⟩ => ⟨S1, .f32⟩
  | .local _ .vmem, ⟨13, _⟩ => ⟨S1, .f32⟩
  | .local _ .vmem, ⟨14, _⟩ => ⟨S256x256, .f32⟩
  | .local _ .vmem, ⟨15, _⟩ => ⟨S256, .f32⟩
  | .local _ .vmem, ⟨16, _⟩ => ⟨S256x128, .f32⟩
  | .local _ .vmem, ⟨17, _⟩ => ⟨S128, .f32⟩
  | .local _ .vmem, ⟨18, _⟩ => ⟨S128x1, .f32⟩
  | .local _ .vmem, ⟨19, _⟩ => ⟨S1, .f32⟩
  | .local _ .vmem, ⟨20, _⟩ => ⟨S4096x1, .f32⟩
  | .local _ .vmem, ⟨21, _⟩ => ⟨S4096x1, .f32⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_c : Ref sig .tc := ⟨.hbm, 20, rfl⟩
abbrev main_v0 : Ref sig .tc := ⟨.hbm, 21, rfl⟩
abbrev main_v1 : Ref sig .tc := ⟨.hbm, 22, rfl⟩
abbrev main_c_0 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_1 : Ref sig .tc := ⟨.hbm, 29, rfl⟩
abbrev main_v7 : Ref sig .tc := ⟨.hbm, 30, rfl⟩
abbrev main_v8 : Ref sig .tc := ⟨.hbm, 31, rfl⟩
abbrev main_c_2 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_c_3 : Ref sig .tc := ⟨.hbm, 38, rfl⟩
abbrev main_v14 : Ref sig .tc := ⟨.hbm, 39, rfl⟩
abbrev main_v15 : Ref sig .tc := ⟨.hbm, 40, rfl⟩
abbrev main_c_4 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg17_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem17_1 : DmaSem sig := 21

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S4096x1 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S128_S128_0 : ∀ a, (![0] : Fin 1 → Nat) a + S128.size a ≤ S128.size a
  h_S128 : 0 < S128.numel
  inb_S128x1_S128x1_0_0 : ∀ a, (![0, 0] : Fin 2 → Nat) a + S128x1.size a ≤ S128x1.size a
  h_S128x1 : 0 < S128x1.numel
  inb_S1_S1_0 : ∀ a, (![0] : Fin 1 → Nat) a + S1.size a ≤ S1.size a
  h_S1 : 0 < S1.numel
  shapeCasts_S128_S1x128 : S128.ShapeCasts S1x128
  broadcasts_S1x128_S4096x128 : S1x128.Broadcasts S4096x128
  broadcasts_S4096x1_S4096x128 : S4096x1.Broadcasts S4096x128
  shapeCasts_S1_S1x1 : S1.ShapeCasts S1x1
  broadcasts_S1x1_S4096x128 : S1x1.Broadcasts S4096x128
  concatenates_S4096x128_S4096x128_S4096x256_d1 : Shape.Concatenates [S4096x128, S4096x128] S4096x256 1
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  shapeCasts_S256_S1x256 : S256.ShapeCasts S1x256
  broadcasts_S1x256_S4096x256 : S1x256.Broadcasts S4096x256
  inb_S256x128_S256x128_0_0 : ∀ a, (![0, 0] : Fin 2 → Nat) a + S256x128.size a ≤ S256x128.size a
  h_S256x128 : 0 < S256x128.numel
  broadcasts_S1x1_S4096x1 : S1x1.Broadcasts S4096x1
  inb_S4096x1_S4096x1_0_0 : ∀ a, (![0, 0] : Fin 2 → Nat) a + S4096x1.size a ≤ S4096x1.size a
  h_S4096x1 : 0 < S4096x1.numel
  shapeCasts_S16384x1_S16384 : S16384x1.ShapeCasts S16384
  gather_S100000x128_S16384x1_S16384x128_1_0_n_n_0_1_1128_wf : GatherDims.WF S100000x128 S16384x1 S16384x128 [1] [0] [] [0] [] 1 ![1, 128]
  gather_S50000x128_S16384x1_S16384x128_1_0_n_n_0_1_1128_wf : GatherDims.WF S50000x128 S16384x1 S16384x128 [1] [0] [] [0] [] 1 ![1, 128]
  dot_S4096x128_S128x128_S4096x128_1_0_0_1_n_n_wf : DotDims.WF S4096x128 S128x128 S4096x128 [1] [0] [0] [1] [] []
  dot_S4096x128_S128x1_S4096x1_1_0_0_1_n_n_wf : DotDims.WF S4096x128 S128x1 S4096x1 [1] [0] [0] [1] [] []
  dot_S4096x256_S256x256_S4096x256_1_0_0_1_n_n_wf : DotDims.WF S4096x256 S256x256 S4096x256 [1] [0] [0] [1] [] []
  dot_S4096x256_S256x128_S4096x128_1_0_0_1_n_n_wf : DotDims.WF S4096x256 S256x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S16384x128.size a
  hwx0_0 : ∀ i : grid0.Coords, EltTy.bits .f32 = 32 ∨ (Rect.block (s := S16384x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S16384x128.size a
  hwx0_1 : ∀ i : grid0.Coords, EltTy.bits .f32 = 32 ∨ (Rect.block (s := S16384x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S16384x128.size a
  hwx0_2 : ∀ i : grid0.Coords, EltTy.bits .f32 = 32 ∨ (Rect.block (s := S16384x128) S4096x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x1.size a ≤ S128x1.size a
  hwx0_5 : ∀ i : grid0.Coords, EltTy.bits .f32 = 32 ∨ (Rect.block (s := S128x1) S128x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x1.size a ≤ S128x1.size a
  hwx0_6 : ∀ i : grid0.Coords, EltTy.bits .f32 = 32 ∨ (Rect.block (s := S128x1) S128x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x1.size a ≤ S128x1.size a
  hwx0_7 : ∀ i : grid0.Coords, EltTy.bits .f32 = 32 ∨ (Rect.block (s := S128x1) S128x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x1.size a ≤ S128x1.size a
  hwx0_8 : ∀ i : grid0.Coords, EltTy.bits .f32 = 32 ∨ (Rect.block (s := S128x1) S128x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1.size a ≤ S1.size a
  hwx0_9 : ∀ i : grid0.Coords, EltTy.bits .f32 = 32 ∨ (Rect.block (s := S1) S1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1.size a ≤ S1.size a
  hwx0_10 : ∀ i : grid0.Coords, EltTy.bits .f32 = 32 ∨ (Rect.block (s := S1) S1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x256.size a ≤ S256x256.size a
  hwx0_11 : ∀ i : grid0.Coords, EltTy.bits .f32 = 32 ∨ (Rect.block (s := S256x256) S256x256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256.size a ≤ S256.size a
  hwx0_12 : ∀ i : grid0.Coords, EltTy.bits .f32 = 32 ∨ (Rect.block (s := S256) S256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S256x128.size a ≤ S256x128.size a
  hwx0_13 : ∀ i : grid0.Coords, EltTy.bits .f32 = 32 ∨ (Rect.block (s := S256x128) S256x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S128.size a ≤ S128.size a
  hwx0_14 : ∀ i : grid0.Coords, EltTy.bits .f32 = 32 ∨ (Rect.block (s := S128) S128.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S128x1.size a ≤ S128x1.size a
  hwx0_15 : ∀ i : grid0.Coords, EltTy.bits .f32 = 32 ∨ (Rect.block (s := S128x1) S128x1.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1.size a ≤ S1.size a
  hwx0_16 : ∀ i : grid0.Coords, EltTy.bits .f32 = 32 ∨ (Rect.block (s := S1) S1.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S4096x1.size a ≤ S16384x1.size a
  hwx0_17 : ∀ i : grid0.Coords, EltTy.bits .f32 = 32 ∨ (Rect.block (s := S16384x1) S4096x1.size (cc0_transform_17 i) (hinb0_17 i)).WholeWords (EltTy.packing .f32)

variable [Facts₀]

def gather_S100000x128_S16384x1_S16384x128_1_0_n_n_0_1_1128 : GatherDims S100000x128 S16384x1 S16384x128 where
  offsetDims := [1]
  collapsedSliceDims := [0]
  operandBatchingDims := []
  startIndicesBatchingDims := []
  startIndexMap := [0]
  indexVectorDim := 1
  sliceSizes := ![1, 128]
  wf := gather_S100000x128_S16384x1_S16384x128_1_0_n_n_0_1_1128_wf
def gather_S50000x128_S16384x1_S16384x128_1_0_n_n_0_1_1128 : GatherDims S50000x128 S16384x1 S16384x128 where
  offsetDims := [1]
  collapsedSliceDims := [0]
  operandBatchingDims := []
  startIndicesBatchingDims := []
  startIndexMap := [0]
  indexVectorDim := 1
  sliceSizes := ![1, 128]
  wf := gather_S50000x128_S16384x1_S16384x128_1_0_n_n_0_1_1128_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x128_S128x1_S4096x1_1_0_0_1_n_n : DotDims S4096x128 S128x1 S4096x1 where
  lhsContracting := [1]
  rhsContracting := [0]
  lhsNonContracting := [0]
  rhsNonContracting := [1]
  lhsBatch := []
  rhsBatch := []
  wf := dot_S4096x128_S128x1_S4096x1_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf

abbrev win0_0 : Pipeline.Window sig grid0 :=
  Pipeline.Window.ofSpec (Memref.whole main_v6) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg12) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg13) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S128x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S128x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S128x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg11) S1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg14) S256x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg15) S256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg16) S256x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg17) S128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg18) S128x1.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg19) S1.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v21) S4096x1.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

class Facts : Prop extends Facts₀ where

variable [Facts]
-- ==== ReferenceIdeal.lean ====
abbrev S16384 : Shape := ⟨1, ![16384]⟩
abbrev S100000x128 : Shape := ⟨2, ![100000, 128]⟩
abbrev S50000x128 : Shape := ⟨2, ![50000, 128]⟩
abbrev S128x1 : Shape := ⟨2, ![128, 1]⟩
abbrev S1 : Shape := ⟨1, ![1]⟩
abbrev S128x128 : Shape := ⟨2, ![128, 128]⟩
abbrev S128 : Shape := ⟨1, ![128]⟩
abbrev S256x256 : Shape := ⟨2, ![256, 256]⟩
abbrev S256 : Shape := ⟨1, ![256]⟩
abbrev S256x128 : Shape := ⟨2, ![256, 128]⟩
abbrev S_ : Shape := ⟨0, ![]⟩
abbrev S16384x1 : Shape := ⟨2, ![16384, 1]⟩
abbrev S16384x128 : Shape := ⟨2, ![16384, 128]⟩
abbrev S1x128 : Shape := ⟨2, ![1, 128]⟩
abbrev S1x1 : Shape := ⟨2, ![1, 1]⟩
abbrev S16384x256 : Shape := ⟨2, ![16384, 256]⟩
abbrev S1x256 : Shape := ⟨2, ![1, 256]⟩

abbrev nBuf : Space → Nat
  | .hbm => 124
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S16384, .f32⟩
  | .hbm, ⟨3, _⟩ => ⟨S100000x128, .f32⟩
  | .hbm, ⟨4, _⟩ => ⟨S50000x128, .f32⟩
  | .hbm, ⟨5, _⟩ => ⟨S50000x128, .f32⟩
  | .hbm, ⟨6, _⟩ => ⟨S128x1, .f32⟩
  | .hbm, ⟨7, _⟩ => ⟨S128x1, .f32⟩
  | .hbm, ⟨8, _⟩ => ⟨S128x1, .f32⟩
  | .hbm, ⟨9, _⟩ => ⟨S128x1, .f32⟩
  | .hbm, ⟨10, _⟩ => ⟨S1, .f32⟩
  | .hbm, ⟨11, _⟩ => ⟨S1, .f32⟩
  | .hbm, ⟨12, _⟩ => ⟨S128x128, .f32⟩
  | .hbm, ⟨13, _⟩ => ⟨S128, .f32⟩
  | .hbm, ⟨14, _⟩ => ⟨S256x256, .f32⟩
  | .hbm, ⟨15, _⟩ => ⟨S256, .f32⟩
  | .hbm, ⟨16, _⟩ => ⟨S256x128, .f32⟩
  | .hbm, ⟨17, _⟩ => ⟨S128, .f32⟩
  | .hbm, ⟨18, _⟩ => ⟨S128x1, .f32⟩
  | .hbm, ⟨19, _⟩ => ⟨S1, .f32⟩
  | .hbm, ⟨20, _⟩ => ⟨S_, .i32⟩
  | .hbm, ⟨21, _⟩ => ⟨S16384, .i32⟩
  | .hbm, ⟨22, _⟩ => ⟨S16384, .i1⟩
  | .hbm, ⟨23, _⟩ => ⟨S_, .i32⟩
  | .hbm, ⟨24, _⟩ => ⟨S16384, .i32⟩
  | .hbm, ⟨25, _⟩ => ⟨S16384, .i32⟩
  | .hbm, ⟨26, _⟩ => ⟨S16384, .i32⟩
  | .hbm, ⟨27, _⟩ => ⟨S16384x1, .i32⟩
  | .hbm, ⟨28, _⟩ => ⟨S16384x128, .f32⟩
  | .hbm, ⟨29, _⟩ => ⟨S_, .i32⟩
  | .hbm, ⟨30, _⟩ => ⟨S16384, .i32⟩
  | .hbm, ⟨31, _⟩ => ⟨S16384, .i1⟩
  | .hbm, ⟨32, _⟩ => ⟨S_, .i32⟩
  | .hbm, ⟨33, _⟩ => ⟨S16384, .i32⟩
  | .hbm, ⟨34, _⟩ => ⟨S16384, .i32⟩
  | .hbm, ⟨35, _⟩ => ⟨S16384, .i32⟩
  | .hbm, ⟨36, _⟩ => ⟨S16384x1, .i32⟩
  | .hbm, ⟨37, _⟩ => ⟨S16384x128, .f32⟩
  | .hbm, ⟨38, _⟩ => ⟨S_, .i32⟩
  | .hbm, ⟨39, _⟩ => ⟨S16384, .i32⟩
  | .hbm, ⟨40, _⟩ => ⟨S16384, .i1⟩
  | .hbm, ⟨41, _⟩ => ⟨S_, .i32⟩
  | .hbm, ⟨42, _⟩ => ⟨S16384, .i32⟩
  | .hbm, ⟨43, _⟩ => ⟨S16384, .i32⟩
  | .hbm, ⟨44, _⟩ => ⟨S16384, .i32⟩
  | .hbm, ⟨45, _⟩ => ⟨S16384x1, .i32⟩
  | .hbm, ⟨46, _⟩ => ⟨S16384x128, .f32⟩
  | .hbm, ⟨47, _⟩ => ⟨S16384x128, .f32⟩
  | .hbm, ⟨48, _⟩ => ⟨S1x128, .f32⟩
  | .hbm, ⟨49, _⟩ => ⟨S16384x128, .f32⟩
  | .hbm, ⟨50, _⟩ => ⟨S16384x128, .f32⟩
  | .hbm, ⟨51, _⟩ => ⟨S_, .f32⟩
  | .hbm, ⟨52, _⟩ => ⟨S16384x128, .f32⟩
  | .hbm, ⟨53, _⟩ => ⟨S16384x128, .f32⟩
  | .hbm, ⟨54, _⟩ => ⟨S16384x1, .f32⟩
  | .hbm, ⟨55, _⟩ => ⟨S16384x1, .f32⟩
  | .hbm, ⟨56, _⟩ => ⟨S16384x1, .f32⟩
  | .hbm, ⟨57, _⟩ => ⟨S16384x1, .f32⟩
  | .hbm, ⟨58, _⟩ => ⟨S16384x128, .f32⟩
  | .hbm, ⟨59, _⟩ => ⟨S16384x128, .f32⟩
  | .hbm, ⟨60, _⟩ => ⟨S16384x128, .f32⟩
  | .hbm, ⟨61, _⟩ => ⟨S16384x128, .f32⟩
  | .hbm, ⟨62, _⟩ => ⟨S16384x128, .f32⟩
  | .hbm, ⟨63, _⟩ => ⟨S1x1, .f32⟩
  | .hbm, ⟨64, _⟩ => ⟨S16384x128, .f32⟩
  | .hbm, ⟨65, _⟩ => ⟨S16384x128, .f32⟩
  | .hbm, ⟨66, _⟩ => ⟨S16384x128, .f32⟩
  | .hbm, ⟨67, _⟩ => ⟨S16384x128, .f32⟩
  | .hbm, ⟨68, _⟩ => ⟨S16384x128, .f32⟩
  | .hbm, ⟨69, _⟩ => ⟨S16384x128, .f32⟩
  | .hbm, ⟨70, _⟩ => ⟨S16384x128, .f32⟩
  | .hbm, ⟨71, _⟩ => ⟨S1x1, .f32⟩
  | .hbm, ⟨72, _⟩ => ⟨S16384x128, .f32⟩
  | .hbm, ⟨73, _⟩ => ⟨S16384x128, .f32⟩
  | .hbm, ⟨74, _⟩ => ⟨S16384x128, .f32⟩
  | .hbm, ⟨75, _⟩ => ⟨S1x128, .f32⟩
  | .hbm, ⟨76, _⟩ => ⟨S16384x128, .f32⟩
  | .hbm, ⟨77, _⟩ => ⟨S16384x128, .f32⟩
  | .hbm, ⟨78, _⟩ => ⟨S_, .f32⟩
  | .hbm, ⟨79, _⟩ => ⟨S16384x128, .f32⟩
  | .hbm, ⟨80, _⟩ => ⟨S16384x128, .f32⟩
  | .hbm, ⟨81, _⟩ => ⟨S16384x1, .f32⟩
  | .hbm, ⟨82, _⟩ => ⟨S16384x1, .f32⟩
  | .hbm, ⟨83, _⟩ => ⟨S16384x1, .f32⟩
  | .hbm, ⟨84, _⟩ => ⟨S16384x1, .f32⟩
  | .hbm, ⟨85, _⟩ => ⟨S16384x128, .f32⟩
  | .hbm, ⟨86, _⟩ => ⟨S16384x128, .f32⟩
  | .hbm, ⟨87, _⟩ => ⟨S16384x128, .f32⟩
  | .hbm, ⟨88, _⟩ => ⟨S16384x128, .f32⟩
  | .hbm, ⟨89, _⟩ => ⟨S16384x128, .f32⟩
  | .hbm, ⟨90, _⟩ => ⟨S1x1, .f32⟩
  | .hbm, ⟨91, _⟩ => ⟨S16384x128, .f32⟩
  | .hbm, ⟨92, _⟩ => ⟨S16384x128, .f32⟩
  | .hbm, ⟨93, _⟩ => ⟨S16384x128, .f32⟩
  | .hbm, ⟨94, _⟩ => ⟨S16384x128, .f32⟩
  | .hbm, ⟨95, _⟩ => ⟨S16384x128, .f32⟩
  | .hbm, ⟨96, _⟩ => ⟨S16384x128, .f32⟩
  | .hbm, ⟨97, _⟩ => ⟨S16384x128, .f32⟩
  | .hbm, ⟨98, _⟩ => ⟨S1x1, .f32⟩
  | .hbm, ⟨99, _⟩ => ⟨S16384x128, .f32⟩
  | .hbm, ⟨100, _⟩ => ⟨S16384x128, .f32⟩
  | .hbm, ⟨101, _⟩ => ⟨S16384x256, .f32⟩
  | .hbm, ⟨102, _⟩ => ⟨S16384x256, .f32⟩
  | .hbm, ⟨103, _⟩ => ⟨S1x256, .f32⟩
  | .hbm, ⟨104, _⟩ => ⟨S16384x256, .f32⟩
  | .hbm, ⟨105, _⟩ => ⟨S16384x256, .f32⟩
  | .hbm, ⟨106, _⟩ => ⟨S_, .f32⟩
  | .hbm, ⟨107, _⟩ => ⟨S16384x256, .f32⟩
  | .hbm, ⟨108, _⟩ => ⟨S16384x256, .f32⟩
  | .hbm, ⟨109, _⟩ => ⟨S16384x128, .f32⟩
  | .hbm, ⟨110, _⟩ => ⟨S1x128, .f32⟩
  | .hbm, ⟨111, _⟩ => ⟨S16384x128, .f32⟩
  | .hbm, ⟨112, _⟩ => ⟨S16384x128, .f32⟩
  | .hbm, ⟨113, _⟩ => ⟨S_, .f32⟩
  | .hbm, ⟨114, _⟩ => ⟨S16384x128, .f32⟩
  | .hbm, ⟨115, _⟩ => ⟨S16384x128, .f32⟩
  | .hbm, ⟨116, _⟩ => ⟨S16384x1, .f32⟩
  | .hbm, ⟨117, _⟩ => ⟨S1x1, .f32⟩
  | .hbm, ⟨118, _⟩ => ⟨S16384x1, .f32⟩
  | .hbm, ⟨119, _⟩ => ⟨S16384x1, .f32⟩
  | .hbm, ⟨120, _⟩ => ⟨S_, .f32⟩
  | .hbm, ⟨121, _⟩ => ⟨S16384x1, .f32⟩
  | .hbm, ⟨122, _⟩ => ⟨S16384x1, .f32⟩
  | .hbm, ⟨123, _⟩ => ⟨S16384, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_c : Ref sig .tc := ⟨.hbm, 20, rfl⟩
abbrev main_v0 : Ref sig .tc := ⟨.hbm, 21, rfl⟩
abbrev main_v1 : Ref sig .tc := ⟨.hbm, 22, rfl⟩
abbrev main_c_0 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_1 : Ref sig .tc := ⟨.hbm, 29, rfl⟩
abbrev main_v7 : Ref sig .tc := ⟨.hbm, 30, rfl⟩
abbrev main_v8 : Ref sig .tc := ⟨.hbm, 31, rfl⟩
abbrev main_c_2 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_c_3 : Ref sig .tc := ⟨.hbm, 38, rfl⟩
abbrev main_v14 : Ref sig .tc := ⟨.hbm, 39, rfl⟩
abbrev main_v15 : Ref sig .tc := ⟨.hbm, 40, rfl⟩
abbrev main_c_4 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_call0_cst : Ref sig .tc := ⟨.hbm, 51, rfl⟩
abbrev main_call0_v0 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_call1_cst : Ref sig .tc := ⟨.hbm, 78, rfl⟩
abbrev main_call1_v0 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_call2_cst : Ref sig .tc := ⟨.hbm, 106, rfl⟩
abbrev main_call2_v0 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_call3_cst : Ref sig .tc := ⟨.hbm, 113, rfl⟩
abbrev main_call3_v0 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_call4_cst : Ref sig .tc := ⟨.hbm, 120, rfl⟩
abbrev main_call4_v0 : Ref sig .tc := ⟨.hbm, 121, rfl⟩
abbrev main_v86 : Ref sig .tc := ⟨.hbm, 122, rfl⟩
abbrev main_v87 : Ref sig .tc := ⟨.hbm, 123, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S_S16384x128 : S_.BroadcastsInDim S16384x128 (![] : Fin 0 → Fin S16384x128.rank)
  bcast_S16384x1_S16384x128_0_1 : S16384x1.BroadcastsInDim S16384x128 (![0, 1] : Fin 2 → Fin S16384x128.rank)
  bcast_S1_S1x1_1 : S1.BroadcastsInDim S1x1 (![1] : Fin 1 → Fin S1x1.rank)
  bcast_S1x1_S16384x128_0_1 : S1x1.BroadcastsInDim S16384x128 (![0, 1] : Fin 2 → Fin S16384x128.rank)
  concatenates_S16384x128_S16384x128_S16384x256_d1 : Shape.Concatenates [S16384x128, S16384x128] S16384x256 1
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  bcast_S1x1_S16384x1_0_1 : S1x1.BroadcastsInDim S16384x1 (![0, 1] : Fin 2 → Fin S16384x1.rank)
  bcast_S_S16384x1 : S_.BroadcastsInDim S16384x1 (![] : Fin 0 → Fin S16384x1.rank)
  shapeCasts_S16384x1_S16384 : S16384x1.ShapeCasts S16384
  gather_S100000x128_S16384x1_S16384x128_1_0_n_n_0_1_1128_wf : GatherDims.WF S100000x128 S16384x1 S16384x128 [1] [0] [] [0] [] 1 ![1, 128]
  gather_S50000x128_S16384x1_S16384x128_1_0_n_n_0_1_1128_wf : GatherDims.WF S50000x128 S16384x1 S16384x128 [1] [0] [] [0] [] 1 ![1, 128]
  dot_S16384x128_S128x128_S16384x128_1_0_0_1_n_n_wf : DotDims.WF S16384x128 S128x128 S16384x128 [1] [0] [0] [1] [] []
  dot_S16384x128_S128x1_S16384x1_1_0_0_1_n_n_wf : DotDims.WF S16384x128 S128x1 S16384x1 [1] [0] [0] [1] [] []
  dot_S16384x256_S256x256_S16384x256_1_0_0_1_n_n_wf : DotDims.WF S16384x256 S256x256 S16384x256 [1] [0] [0] [1] [] []
  dot_S16384x256_S256x128_S16384x128_1_0_0_1_n_n_wf : DotDims.WF S16384x256 S256x128 S16384x128 [1] [0] [0] [1] [] []

variable [Facts₀]

def gather_S100000x128_S16384x1_S16384x128_1_0_n_n_0_1_1128 : GatherDims S100000x128 S16384x1 S16384x128 where
  offsetDims := [1]
  collapsedSliceDims := [0]
  operandBatchingDims := []
  startIndicesBatchingDims := []
  startIndexMap := [0]
  indexVectorDim := 1
  sliceSizes := ![1, 128]
  wf := gather_S100000x128_S16384x1_S16384x128_1_0_n_n_0_1_1128_wf
def gather_S50000x128_S16384x1_S16384x128_1_0_n_n_0_1_1128 : GatherDims S50000x128 S16384x1 S16384x128 where
  offsetDims := [1]
  collapsedSliceDims := [0]
  operandBatchingDims := []
  startIndicesBatchingDims := []
  startIndexMap := [0]
  indexVectorDim := 1
  sliceSizes := ![1, 128]
  wf := gather_S50000x128_S16384x1_S16384x128_1_0_n_n_0_1_1128_wf
def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def dot_S16384x128_S128x1_S16384x1_1_0_0_1_n_n : DotDims S16384x128 S128x1 S16384x1 where
  lhsContracting := [1]
  rhsContracting := [0]
  lhsNonContracting := [0]
  rhsNonContracting := [1]
  lhsBatch := []
  rhsBatch := []
  wf := dot_S16384x128_S128x1_S16384x1_1_0_0_1_n_n_wf
def dot_S16384x256_S256x256_S16384x256_1_0_0_1_n_n : DotDims S16384x256 S256x256 S16384x256 where
  lhsContracting := [1]
  rhsContracting := [0]
  lhsNonContracting := [0]
  rhsNonContracting := [1]
  lhsBatch := []
  rhsBatch := []
  wf := dot_S16384x256_S256x256_S16384x256_1_0_0_1_n_n_wf
def dot_S16384x256_S256x128_S16384x128_1_0_0_1_n_n : DotDims S16384x256 S256x128 S16384x128 where
  lhsContracting := [1]
  rhsContracting := [0]
  lhsNonContracting := [0]
  rhsNonContracting := [1]
  lhsBatch := []
  rhsBatch := []
  wf := dot_S16384x256_S256x128_S16384x128_1_0_0_1_n_n_wf

class Facts : Prop extends Facts₀ where

variable [Facts]
-- ==== Proof.GatheredRows.lean ====
/-
  The gathered arrays as the kernel's region finds them.

  The host lines before the region compute the three embedding arrays from the argument arrays by the very lines the
  reference begins with: the id vector is compared with zero, the table's length is added where it is negative, the
  result is laid out as a column and handed to the same `gather` of the same table. What a gather reads at an id is
  never opened here: the two programs print one term, so the region's three streamed operands are the reference's own
  three gathers of the same arguments.
-/
import proofs.«116850_j90494960927208_1_alg».proof.Proof.Gen.ReferenceIdeal.Read
import proofs.«116850_j90494960927208_1_alg».proof.Proof.Gen.KernelIdeal.Frame
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Whole

open Cert.KernelIdeal Cert.KernelIdeal.Gen
open Cert.ReferenceIdeal.Read (val_main_v6 val_main_v13 val_main_v20)

variable (m : (ℓ : Loc nD τ sig) → Buf (Elt Ideal) ℓ) (ρ : Dev nD → PrngReg)

/-! ## The gathered arrays as the region finds them -/

/-- The user rows: the reference's own gather of the user table at the user ids. -/
theorem V_user (c : Dev nD) : V m c main_v6 = val_main_v6 (F := Ideal) (m ((c : Thread nD τ).loc main_arg0)) (m ((c : Thread nD τ).loc main_arg3)) := by
  show StableHlo.after hostOps0 (fun b => m (c, b)) (Proc.devRef .tc main_v6) = _
  after_results
  rfl

set_option maxHeartbeats 2000000 in
/-- The item rows. -/
theorem V_item (c : Dev nD) : V m c main_v13 = val_main_v13 (F := Ideal) (m ((c : Thread nD τ).loc main_arg1)) (m ((c : Thread nD τ).loc main_arg4)) := by
  show StableHlo.after hostOps0 (fun b => m (c, b)) (Proc.devRef .tc main_v13) = _
  after_results
  rfl

set_option maxHeartbeats 4000000 in
/-- The head rows. -/
theorem V_head (c : Dev nD) : V m c main_v20 = val_main_v20 (F := Ideal) (m ((c : Thread nD τ).loc main_arg1)) (m ((c : Thread nD τ).loc main_arg5)) := by
  show StableHlo.after hostOps0 (fun b => m (c, b)) (Proc.devRef .tc main_v20) = _
  after_results
  rfl

end Cert.KernelIdeal.Whole

end
-- ==== Proof.RowBlocks.lean ====
/-
  Blocks of rows.

  The kernel works on 4096 rows at a time and the reference on all 16384 at once, and every operation of the
  program acts on each row by itself: a product with a weight matrix contracts along the row, a bias is laid along
  every row, the cross terms multiply a row by numbers computed from the same row, and the concatenation joins two
  rows. So the relation "the small array is rows 4096·t … 4096·t + 4095 of the large one" (`IsBlock`) is kept by
  each operation, whichever of its two spellings computes it: the kernel's (a `tpu.matmul` into a zero accumulator,
  a vector cast to one row and broadcast down, a narrowing to bf16, which at the extended reals is the identity) on
  the block, the host's (`dot_general`, two `broadcast_in_dim`s) on the whole array. No law of arithmetic is used:
  each pair of operations is the same expression of the same entries, so nothing here asks the entries to be finite.
-/
import proofs.«116850_j90494960927208_1_alg».proof.Proof.Gen.KernelIdeal
import proofs.«116850_j90494960927208_1_alg».proof.Proof.Gen.ReferenceIdeal
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

noncomputable section

namespace Cert.RowBlocks

open Idealize.ShloMosaic Idealize.ShloMosaic.ValueIdx

/-! ## The layout operations read at (row, column) -/

section Reads
variable {α : Type}

/-- A vector of `C` entries cast to one row and broadcast down `N` rows reads, at (r, j), the vector's entry j. -/
theorem rowvec_block {N C : Nat} (b : (⟨1, ![C]⟩ : Shape).Idx → α) (h1 : (⟨1, ![C]⟩ : Shape).ShapeCasts ⟨2, ![1, C]⟩)
    (h2 : (⟨2, ![1, C]⟩ : Shape).Broadcasts ⟨2, ![N, C]⟩) (r : Fin N) (j : Fin C) :
    broadcastTo ⟨2, ![N, C]⟩ (shapeCast ⟨2, ![1, C]⟩ b h1) h2 (ix2 r j) = b (ix1 j) :=
  (broadcastTo_1b_ab_apply _ h2 r j).trans (shapeCast_a_1a_apply b h1 0 j)

/-- The host's spelling of the same: the vector broadcast along axis 1 of a one-row matrix, that matrix along both axes. -/
theorem rowvec_whole {N C : Nat} (b : (⟨1, ![C]⟩ : Shape).Idx → α) (h1 : (⟨1, ![C]⟩ : Shape).BroadcastsInDim ⟨2, ![1, C]⟩ ![1])
    (h2 : (⟨2, ![1, C]⟩ : Shape).BroadcastsInDim ⟨2, ![N, C]⟩ ![0, 1]) (r : Fin N) (j : Fin C) :
    broadcastInDim ⟨2, ![N, C]⟩ ![0, 1] h2 (broadcastInDim ⟨2, ![1, C]⟩ ![1] h1 b) (ix2 r j) = b (ix1 j) := by
  rw [broadcastInDim_oneRow_apply h2 _ r j]
  refine broadcastInDim_apply ![1] h1 b (ix2 (0 : Fin 1) j) (ix1 j) fun a => ?_
  match a with
  | ⟨0, _⟩ =>
    show j.val = if C = 1 then 0 else j.val
    split
    · have := j.isLt; omega
    · rfl

/-- A one-entry vector cast to a 1×1 matrix and broadcast to `N × C` reads its one entry everywhere. -/
theorem scalar_block {N C : Nat} (b : (⟨1, ![1]⟩ : Shape).Idx → α) (h1 : (⟨1, ![1]⟩ : Shape).ShapeCasts ⟨2, ![1, 1]⟩)
    (h2 : (⟨2, ![1, 1]⟩ : Shape).Broadcasts ⟨2, ![N, C]⟩) (r : Fin N) (j : Fin C) :
    broadcastTo ⟨2, ![N, C]⟩ (shapeCast ⟨2, ![1, 1]⟩ b h1) h2 (ix2 r j) = b (ix1 0) := by
  refine (broadcastTo_apply _ h2 (ix2 r j) (ix2 (0 : Fin 1) (0 : Fin 1)) fun a => ?_).trans (shapeCast_a_1a_apply b h1 0 0)
  match a with
  | ⟨0, _⟩ => rfl
  | ⟨1, _⟩ => rfl

/-- The host's spelling of the same. -/
theorem scalar_whole {N C : Nat} (b : (⟨1, ![1]⟩ : Shape).Idx → α) (h1 : (⟨1, ![1]⟩ : Shape).BroadcastsInDim ⟨2, ![1, 1]⟩ ![1])
    (h2 : (⟨2, ![1, 1]⟩ : Shape).BroadcastsInDim ⟨2, ![N, C]⟩ ![0, 1]) (r : Fin N) (j : Fin C) :
    broadcastInDim ⟨2, ![N, C]⟩ ![0, 1] h2 (broadcastInDim ⟨2, ![1, 1]⟩ ![1] h1 b) (ix2 r j) = b (ix1 0) := by
  refine (broadcastInDim_apply ![0, 1] h2 _ (ix2 r j) (ix2 (0 : Fin 1) (0 : Fin 1)) fun a => ?_).trans
    (broadcastInDim_apply ![1] h1 b (ix2 (0 : Fin 1) (0 : Fin 1)) (ix1 0) fun a => ?_)
  · match a with
    | ⟨0, _⟩ => rfl
    | ⟨1, _⟩ => rfl
  · match a with
    | ⟨0, _⟩ => rfl

/-- A column broadcast along the rows' entries reads, at (r, j), the column's entry r. -/
theorem column_block {N C : Nat} (v : (⟨2, ![N, 1]⟩ : Shape).Idx → α) (h : (⟨2, ![N, 1]⟩ : Shape).Broadcasts ⟨2, ![N, C]⟩)
    (r : Fin N) (j : Fin C) : broadcastTo ⟨2, ![N, C]⟩ v h (ix2 r j) = v (ix2 r 0) := by
  refine broadcastTo_apply v h (ix2 r j) (ix2 r (0 : Fin 1)) fun a => ?_
  match a with
  | ⟨0, _⟩ =>
    show r.val = if N = 1 then 0 else r.val
    split
    · have := r.isLt; omega
    · rfl
  | ⟨1, _⟩ => rfl

/-- The host's spelling of the same. -/
theorem column_whole {N C : Nat} (v : (⟨2, ![N, 1]⟩ : Shape).Idx → α) (h : (⟨2, ![N, 1]⟩ : Shape).BroadcastsInDim ⟨2, ![N, C]⟩ ![0, 1])
    (r : Fin N) (j : Fin C) : broadcastInDim ⟨2, ![N, C]⟩ ![0, 1] h v (ix2 r j) = v (ix2 r 0) := by
  refine broadcastInDim_apply ![0, 1] h v (ix2 r j) (ix2 r (0 : Fin 1)) fun a => ?_
  match a with
  | ⟨0, _⟩ =>
    show r.val = if N = 1 then 0 else r.val
    split
    · have := r.isLt; omega
    · rfl
  | ⟨1, _⟩ => rfl

/-- Two matrices of `N` rows joined along the rows: at a column of the first it reads the first. -/
theorem join_left {N A B T : Nat} (x : (⟨2, ![N, A]⟩ : Shape).Idx → α) (y : (⟨2, ![N, B]⟩ : Shape).Idx → α)
    (h : Shape.Concatenates [(⟨2, ![N, A]⟩ : Shape), ⟨2, ![N, B]⟩] ⟨2, ![N, T]⟩ 1) (r : Fin N) (j : Fin T) (hj : j.val < A) :
    concatenate ⟨2, ![N, T]⟩ 1 [⟨⟨2, ![N, A]⟩, x⟩, ⟨⟨2, ![N, B]⟩, y⟩] h (ix2 r j) = x (ix2 r ⟨j.val, hj⟩) := by
  refine concatenate_pair_apply_left 1 x y h (ix2 r j) rfl (ix2 r ⟨j.val, hj⟩) fun b => ?_
  match b with
  | ⟨0, _⟩ => rfl
  | ⟨1, _⟩ => rfl

/-- At a column past the first it reads the second, the first's width less. -/
theorem join_right {N A B T : Nat} (x : (⟨2, ![N, A]⟩ : Shape).Idx → α) (y : (⟨2, ![N, B]⟩ : Shape).Idx → α)
    (h : Shape.Concatenates [(⟨2, ![N, A]⟩ : Shape), ⟨2, ![N, B]⟩] ⟨2, ![N, T]⟩ 1) (r : Fin N) (j : Fin T) (hj : A ≤ j.val)
    (hB : j.val - A < B) :
    concatenate ⟨2, ![N, T]⟩ 1 [⟨⟨2, ![N, A]⟩, x⟩, ⟨⟨2, ![N, B]⟩, y⟩] h (ix2 r j) = y (ix2 r ⟨j.val - A, hB⟩) := by
  refine concatenate_pair_apply_right 1 x y h (ix2 r j) rfl rfl (ix2 r ⟨j.val - A, hB⟩) (fun b hb => ?_) ?_
  · match b with
    | ⟨0, _⟩ => rfl
    | ⟨1, _⟩ => exact absurd rfl hb
  · show j.val - A + A = j.val
    omega

end Reads

/-! ## A product with a weight matrix read at (row, column) -/

/-- For a product of an `N × K` by a `K × M` matrix whose dimension numbers contract the first's columns with the
    second's rows, the sum over the contraction index is the sum over `k` of entry (r, k) times entry (k, j). -/
theorem dot_sum {N K M : Nat} (D : DotDims ⟨2, ![N, K]⟩ ⟨2, ![K, M]⟩ ⟨2, ![N, M]⟩)
    (hr : D.contr.rank = 1) (hs : D.contr.size ⟨0, by omega⟩ = K)
    (l0 : ∀ (i : (⟨2, ![N, M]⟩ : Shape).Idx) (q : D.contr.Idx), (D.lhsIdx i q 0).val = (i 0).val)
    (l1 : ∀ (i : (⟨2, ![N, M]⟩ : Shape).Idx) (q : D.contr.Idx), (D.lhsIdx i q 1).val = (q ⟨0, by omega⟩).val)
    (r0 : ∀ (i : (⟨2, ![N, M]⟩ : Shape).Idx) (q : D.contr.Idx), (D.rhsIdx i q 0).val = (q ⟨0, by omega⟩).val)
    (r1 : ∀ (i : (⟨2, ![N, M]⟩ : Shape).Idx) (q : D.contr.Idx), (D.rhsIdx i q 1).val = (i 1).val)
    (a : (⟨2, ![N, K]⟩ : Shape).Idx → EReal) (w : (⟨2, ![K, M]⟩ : Shape).Idx → EReal) (r : Fin N) (j : Fin M) :
    ∑ q : D.contr.Idx, a (D.lhsIdx (ix2 r j) q) * w (D.rhsIdx (ix2 r j) q) = ∑ k : Fin K, a (ix2 r k) * w (ix2 k j) := by
  rw [← Equiv.sum_comp (contrEquiv1 D K hr hs).symm]
  refine Finset.sum_congr rfl fun k _ => ?_
  have hk := contrEquiv1_symm_val D K hr hs k
  have el : D.lhsIdx (ix2 r j) ((contrEquiv1 D K hr hs).symm k) = ix2 r k := funext fun ax => Fin.ext (by
    match ax with
    | ⟨0, _⟩ => exact l0 _ _
    | ⟨1, _⟩ => exact (l1 _ _).trans hk)
  have er : D.rhsIdx (ix2 r j) ((contrEquiv1 D K hr hs).symm k) = ix2 k j := funext fun ax => Fin.ext (by
    match ax with
    | ⟨0, _⟩ => exact (r0 _ _).trans hk
    | ⟨1, _⟩ => exact r1 _ _)
  rw [el, er]

/-! ## The eight products of this program, each as that sum -/

section Products

/-- The four facts of `dot_sum` for one generated record: two by the record's single contracted axis, two by
    unfolding the operand index at the free axis. -/
local macro "dot_read " D:term ", " so:term ", " sl:term ", " sr:term : tactic => `(tactic| exact dot_sum $D rfl rfl
  (fun i q => by
    unfold DotDims.lhsIdx
    rw [dif_neg (show ¬(0 : Fin ($sl).rank) ∈ ($D).lhsBatch by decide), dif_pos (show (0 : Fin ($sl).rank) ∈ ($D).lhsNonContracting by decide)]
    rfl)
  (fun i q => ($D).lhsIdx_val_of_single rfl i q)
  (fun i q => ($D).rhsIdx_val_of_single rfl i q)
  (fun i q => by
    unfold DotDims.rhsIdx
    rw [dif_neg (show ¬(1 : Fin ($sr).rank) ∈ ($D).rhsBatch by decide), dif_pos (show (1 : Fin ($sr).rank) ∈ ($D).rhsNonContracting by decide)]
    rfl)
  _ _ _ _)

variable {φ₁ φ₂ : FTy}

open Cert.KernelIdeal in
theorem block_mm_128_128 (a : FVec Ideal S4096x128 φ₁) (w : FVec Ideal S128x128 φ₂) (r : Fin 4096) (j : Fin 128) :
    matmul dot_S4096x128_S128x128_S4096x128_1_0_0_1_n_n none a w (constant S4096x128 .f32 0x00000000#32) (ix2 r j)
      = ∑ k : Fin 128, a (ix2 r k) * w (ix2 k j) := by
  refine (Ideal.matmul_constant_zero_apply dot_S4096x128_S128x128_S4096x128_1_0_0_1_n_n none a w (ix2 r j)).trans ?_
  dot_read dot_S4096x128_S128x128_S4096x128_1_0_0_1_n_n, S4096x128, S4096x128, S128x128

open Cert.KernelIdeal in
theorem block_mm_128_1 (a : FVec Ideal S4096x128 φ₁) (w : FVec Ideal S128x1 φ₂) (r : Fin 4096) (j : Fin 1) :
    matmul dot_S4096x128_S128x1_S4096x1_1_0_0_1_n_n none a w (constant S4096x1 .f32 0x00000000#32) (ix2 r j)
      = ∑ k : Fin 128, a (ix2 r k) * w (ix2 k j) := by
  refine (Ideal.matmul_constant_zero_apply dot_S4096x128_S128x1_S4096x1_1_0_0_1_n_n none a w (ix2 r j)).trans ?_
  dot_read dot_S4096x128_S128x1_S4096x1_1_0_0_1_n_n, S4096x1, S4096x128, S128x1

open Cert.KernelIdeal in
theorem block_mm_256_256 (a : FVec Ideal S4096x256 φ₁) (w : FVec Ideal S256x256 φ₂) (r : Fin 4096) (j : Fin 256) :
    matmul dot_S4096x256_S256x256_S4096x256_1_0_0_1_n_n none a w (constant S4096x256 .f32 0x00000000#32) (ix2 r j)
      = ∑ k : Fin 256, a (ix2 r k) * w (ix2 k j) := by
  refine (Ideal.matmul_constant_zero_apply dot_S4096x256_S256x256_S4096x256_1_0_0_1_n_n none a w (ix2 r j)).trans ?_
  dot_read dot_S4096x256_S256x256_S4096x256_1_0_0_1_n_n, S4096x256, S4096x256, S256x256

open Cert.KernelIdeal in
theorem block_mm_256_128 (a : FVec Ideal S4096x256 φ₁) (w : FVec Ideal S256x128 φ₂) (r : Fin 4096) (j : Fin 128) :
    matmul dot_S4096x256_S256x128_S4096x128_1_0_0_1_n_n none a w (constant S4096x128 .f32 0x00000000#32) (ix2 r j)
      = ∑ k : Fin 256, a (ix2 r k) * w (ix2 k j) := by
  refine (Ideal.matmul_constant_zero_apply dot_S4096x256_S256x128_S4096x128_1_0_0_1_n_n none a w (ix2 r j)).trans ?_
  dot_read dot_S4096x256_S256x128_S4096x128_1_0_0_1_n_n, S4096x128, S4096x256, S256x128

open Cert.ReferenceIdeal in
theorem whole_mm_128_128 (a : FVec Ideal S16384x128 φ₁) (w : FVec Ideal S128x128 φ₂) (r : Fin 16384) (j : Fin 128) :
    Host.dotGeneral dot_S16384x128_S128x128_S16384x128_1_0_0_1_n_n none a w (ix2 r j)
      = ∑ k : Fin 128, a (ix2 r k) * w (ix2 k j) := by
  refine (Ideal.dotGeneral_apply dot_S16384x128_S128x128_S16384x128_1_0_0_1_n_n none _ a w (ix2 r j)).trans ?_
  dot_read dot_S16384x128_S128x128_S16384x128_1_0_0_1_n_n, S16384x128, S16384x128, S128x128

open Cert.ReferenceIdeal in
theorem whole_mm_128_1 (a : FVec Ideal S16384x128 φ₁) (w : FVec Ideal S128x1 φ₂) (r : Fin 16384) (j : Fin 1) :
    Host.dotGeneral dot_S16384x128_S128x1_S16384x1_1_0_0_1_n_n none a w (ix2 r j)
      = ∑ k : Fin 128, a (ix2 r k) * w (ix2 k j) := by
  refine (Ideal.dotGeneral_apply dot_S16384x128_S128x1_S16384x1_1_0_0_1_n_n none _ a w (ix2 r j)).trans ?_
  dot_read dot_S16384x128_S128x1_S16384x1_1_0_0_1_n_n, S16384x1, S16384x128, S128x1

open Cert.ReferenceIdeal in
theorem whole_mm_256_256 (a : FVec Ideal S16384x256 φ₁) (w : FVec Ideal S256x256 φ₂) (r : Fin 16384) (j : Fin 256) :
    Host.dotGeneral dot_S16384x256_S256x256_S16384x256_1_0_0_1_n_n none a w (ix2 r j)
      = ∑ k : Fin 256, a (ix2 r k) * w (ix2 k j) := by
  refine (Ideal.dotGeneral_apply dot_S16384x256_S256x256_S16384x256_1_0_0_1_n_n none _ a w (ix2 r j)).trans ?_
  dot_read dot_S16384x256_S256x256_S16384x256_1_0_0_1_n_n, S16384x256, S16384x256, S256x256

open Cert.ReferenceIdeal in
theorem whole_mm_256_128 (a : FVec Ideal S16384x256 φ₁) (w : FVec Ideal S256x128 φ₂) (r : Fin 16384) (j : Fin 128) :
    Host.dotGeneral dot_S16384x256_S256x128_S16384x128_1_0_0_1_n_n none a w (ix2 r j)
      = ∑ k : Fin 256, a (ix2 r k) * w (ix2 k j) := by
  refine (Ideal.dotGeneral_apply dot_S16384x256_S256x128_S16384x128_1_0_0_1_n_n none _ a w (ix2 r j)).trans ?_
  dot_read dot_S16384x256_S256x128_S16384x128_1_0_0_1_n_n, S16384x128, S16384x256, S256x128

end Products

/-! ## Blocks of rows -/

/-- Row `r` of the `t`-th block of 4096 rows is row `4096·t + r` of the whole. -/
abbrev wholeRow (t : Fin 4) (r : Fin 4096) : Fin 16384 :=
  ⟨4096 * t.val + r.val, by have := t.isLt; have := r.isLt; omega⟩

/-- `a` is the `t`-th block of 4096 rows of `A`, entry by entry (the two may carry different float formats: at the
    extended reals every format's values are the same numbers). -/
def IsBlock {C : Nat} {φ ψ : FTy} (t : Fin 4) (a : FVec Ideal ⟨2, ![4096, C]⟩ φ) (A : FVec Ideal ⟨2, ![16384, C]⟩ ψ) : Prop :=
  ∀ (r : Fin 4096) (j : Fin C), a (ix2 r j) = A (ix2 (wholeRow t r) j)

namespace IsBlock

variable {C : Nat} {φ ψ : FTy} {t : Fin 4}

/-- Sums of blocks are blocks of sums. -/
theorem add {a b : FVec Ideal ⟨2, ![4096, C]⟩ φ} {A B : FVec Ideal ⟨2, ![16384, C]⟩ φ} (h1 : IsBlock t a A) (h2 : IsBlock t b B) :
    IsBlock t (addf a b) (addf A B) := fun r j => by
  rw [addf_apply, addf_apply, h1 r j, h2 r j]

/-- Products, entry by entry. -/
theorem mul {a b : FVec Ideal ⟨2, ![4096, C]⟩ φ} {A B : FVec Ideal ⟨2, ![16384, C]⟩ φ} (h1 : IsBlock t a A) (h2 : IsBlock t b B) :
    IsBlock t (mulf a b) (mulf A B) := fun r j => by
  rw [mulf_apply, mulf_apply, h1 r j, h2 r j]

/-- Maxima, entry by entry. -/
theorem max {a b : FVec Ideal ⟨2, ![4096, C]⟩ φ} {A B : FVec Ideal ⟨2, ![16384, C]⟩ φ} (h1 : IsBlock t a A) (h2 : IsBlock t b B) :
    IsBlock t (maximumf a b) (maximumf A B) := fun r j => by
  rw [maximumf_apply, maximumf_apply, h1 r j, h2 r j]

/-- Narrowing the block's float format changes no entry. -/
theorem narrow {χ : FTy} {a : FVec Ideal ⟨2, ![4096, C]⟩ φ} {A : FVec Ideal ⟨2, ![16384, C]⟩ ψ} (h : IsBlock t a A)
    (hb : χ.bits < φ.bits) : IsBlock t (truncf χ a hb) A := fun r j => h r j

/-- A cast of the block to its own shape changes nothing. -/
theorem recast {a : FVec Ideal ⟨2, ![4096, C]⟩ φ} {A : FVec Ideal ⟨2, ![16384, C]⟩ ψ} (h : IsBlock t a A)
    (hc : (⟨2, ![4096, C]⟩ : Shape).ShapeCasts ⟨2, ![4096, C]⟩) : IsBlock t (shapeCast ⟨2, ![4096, C]⟩ a hc) A := by
  rw [shapeCast_self]; exact h

/-- A vector laid along every row: the block's rows and the whole's rows all read the vector. -/
theorem rowvec {b : FVec Ideal ⟨1, ![C]⟩ φ} {b' : FVec Ideal ⟨1, ![C]⟩ ψ} (hb : ∀ i, b i = b' i)
    (h1 : (⟨1, ![C]⟩ : Shape).ShapeCasts ⟨2, ![1, C]⟩) (h2 : (⟨2, ![1, C]⟩ : Shape).Broadcasts ⟨2, ![4096, C]⟩)
    (h3 : (⟨1, ![C]⟩ : Shape).BroadcastsInDim ⟨2, ![1, C]⟩ ![1]) (h4 : (⟨2, ![1, C]⟩ : Shape).BroadcastsInDim ⟨2, ![16384, C]⟩ ![0, 1]) :
    IsBlock t (broadcastTo ⟨2, ![4096, C]⟩ (shapeCast ⟨2, ![1, C]⟩ b h1) h2)
      (broadcastInDim ⟨2, ![16384, C]⟩ ![0, 1] h4 (broadcastInDim ⟨2, ![1, C]⟩ ![1] h3 b')) := fun r j =>
  (rowvec_block b h1 h2 r j).trans ((hb _).trans (rowvec_whole b' h3 h4 (wholeRow t r) j).symm)

/-- One number laid over the whole matrix. -/
theorem scalar {b : FVec Ideal ⟨1, ![1]⟩ φ} {b' : FVec Ideal ⟨1, ![1]⟩ ψ} (hb : ∀ i, b i = b' i)
    (h1 : (⟨1, ![1]⟩ : Shape).ShapeCasts ⟨2, ![1, 1]⟩) (h2 : (⟨2, ![1, 1]⟩ : Shape).Broadcasts ⟨2, ![4096, C]⟩)
    (h3 : (⟨1, ![1]⟩ : Shape).BroadcastsInDim ⟨2, ![1, 1]⟩ ![1]) (h4 : (⟨2, ![1, 1]⟩ : Shape).BroadcastsInDim ⟨2, ![16384, C]⟩ ![0, 1]) :
    IsBlock t (broadcastTo ⟨2, ![4096, C]⟩ (shapeCast ⟨2, ![1, 1]⟩ b h1) h2)
      (broadcastInDim ⟨2, ![16384, C]⟩ ![0, 1] h4 (broadcastInDim ⟨2, ![1, 1]⟩ ![1] h3 b')) := fun r j =>
  (scalar_block b h1 h2 r j).trans ((hb _).trans (scalar_whole b' h3 h4 (wholeRow t r) j).symm)

/-- A column laid along the rows' entries: row `r` of the block reads the column's entry `r`, which is the whole
    column's entry `4096·t + r`. -/
theorem column {v : FVec Ideal ⟨2, ![4096, 1]⟩ φ} {V : FVec Ideal ⟨2, ![16384, 1]⟩ ψ} (hv : IsBlock t v V)
    (h : (⟨2, ![4096, 1]⟩ : Shape).Broadcasts ⟨2, ![4096, C]⟩) (h' : (⟨2, ![16384, 1]⟩ : Shape).BroadcastsInDim ⟨2, ![16384, C]⟩ ![0, 1]) :
    IsBlock t (broadcastTo ⟨2, ![4096, C]⟩ v h) (broadcastInDim ⟨2, ![16384, C]⟩ ![0, 1] h' V) := fun r j =>
  (column_block v h r j).trans ((hv r 0).trans (column_whole V h' (wholeRow t r) j).symm)

/-- One number splat over the block, and the host's broadcast of a rank-0 array holding it. -/
theorem splat (x : Ideal φ) {z : FVec Ideal ⟨0, ![]⟩ ψ} (hz : ∀ i, z i = x)
    (h : (⟨0, ![]⟩ : Shape).BroadcastsInDim ⟨2, ![16384, C]⟩ ![]) :
    IsBlock t (broadcast ⟨2, ![4096, C]⟩ x) (broadcastInDim ⟨2, ![16384, C]⟩ ![] h z) := fun r j => by
  show x = broadcastInDim ⟨2, ![16384, C]⟩ ![] h z (ix2 (wholeRow t r) j)
  rw [broadcastInDim_apply ![] h z (ix2 (wholeRow t r) j) ix0 (fun a => a.elim0), hz ix0]

/-- Two blocks joined side by side are the block of the two wholes joined side by side. -/
theorem join {a b : FVec Ideal ⟨2, ![4096, 128]⟩ φ} {A B : FVec Ideal ⟨2, ![16384, 128]⟩ φ} (h1 : IsBlock t a A) (h2 : IsBlock t b B)
    (hk : Shape.Concatenates [(⟨2, ![4096, 128]⟩ : Shape), ⟨2, ![4096, 128]⟩] ⟨2, ![4096, 256]⟩ 1)
    (hw : Shape.Concatenates [(⟨2, ![16384, 128]⟩ : Shape), ⟨2, ![16384, 128]⟩] ⟨2, ![16384, 256]⟩ 1) :
    IsBlock t (concatenate ⟨2, ![4096, 256]⟩ 1 [⟨⟨2, ![4096, 128]⟩, a⟩, ⟨⟨2, ![4096, 128]⟩, b⟩] hk)
      (concatenate ⟨2, ![16384, 256]⟩ 1 [⟨⟨2, ![16384, 128]⟩, A⟩, ⟨⟨2, ![16384, 128]⟩, B⟩] hw) := fun r j => by
  by_cases hj : j.val < 128
  · rw [join_left a b hk r j hj, join_left A B hw (wholeRow t r) j hj]
    exact h1 r _
  · have hB : j.val - 128 < 128 := by have := j.isLt; omega
    rw [join_right a b hk r j (by omega) hB, join_right A B hw (wholeRow t r) j (by omega) hB]
    exact h2 r _

/-! ### The four products: a block times the weights is the block of the whole times the weights -/

variable {φ₁ φ₂ ψ₁ ψ₂ : FTy}

theorem mm_128_128 {a : FVec Ideal Cert.KernelIdeal.S4096x128 φ₁} {A : FVec Ideal Cert.ReferenceIdeal.S16384x128 ψ₁}
    {w : FVec Ideal Cert.KernelIdeal.S128x128 φ₂} {W : FVec Ideal Cert.ReferenceIdeal.S128x128 ψ₂}
    (h : IsBlock t a A) (hw : ∀ i, w i = W i) :
    IsBlock t (matmul Cert.KernelIdeal.dot_S4096x128_S128x128_S4096x128_1_0_0_1_n_n none a w (constant Cert.KernelIdeal.S4096x128 .f32 0x00000000#32))
      (Host.dotGeneral Cert.ReferenceIdeal.dot_S16384x128_S128x128_S16384x128_1_0_0_1_n_n none A W) := fun r j =>
  (block_mm_128_128 a w r j).trans (Eq.trans (Finset.sum_congr rfl fun k _ => by rw [h r k, hw]) (whole_mm_128_128 A W (wholeRow t r) j).symm)

theorem mm_128_1 {a : FVec Ideal Cert.KernelIdeal.S4096x128 φ₁} {A : FVec Ideal Cert.ReferenceIdeal.S16384x128 ψ₁}
    {w : FVec Ideal Cert.KernelIdeal.S128x1 φ₂} {W : FVec Ideal Cert.ReferenceIdeal.S128x1 ψ₂}
    (h : IsBlock t a A) (hw : ∀ i, w i = W i) :
    IsBlock t (matmul Cert.KernelIdeal.dot_S4096x128_S128x1_S4096x1_1_0_0_1_n_n none a w (constant Cert.KernelIdeal.S4096x1 .f32 0x00000000#32))
      (Host.dotGeneral Cert.ReferenceIdeal.dot_S16384x128_S128x1_S16384x1_1_0_0_1_n_n none A W) := fun r j =>
  (block_mm_128_1 a w r j).trans (Eq.trans (Finset.sum_congr rfl fun k _ => by rw [h r k, hw]) (whole_mm_128_1 A W (wholeRow t r) j).symm)

theorem mm_256_256 {a : FVec Ideal Cert.KernelIdeal.S4096x256 φ₁} {A : FVec Ideal Cert.ReferenceIdeal.S16384x256 ψ₁}
    {w : FVec Ideal Cert.KernelIdeal.S256x256 φ₂} {W : FVec Ideal Cert.ReferenceIdeal.S256x256 ψ₂}
    (h : IsBlock t a A) (hw : ∀ i, w i = W i) :
    IsBlock t (matmul Cert.KernelIdeal.dot_S4096x256_S256x256_S4096x256_1_0_0_1_n_n none a w (constant Cert.KernelIdeal.S4096x256 .f32 0x00000000#32))
      (Host.dotGeneral Cert.ReferenceIdeal.dot_S16384x256_S256x256_S16384x256_1_0_0_1_n_n none A W) := fun r j =>
  (block_mm_256_256 a w r j).trans (Eq.trans (Finset.sum_congr rfl fun k _ => by rw [h r k, hw]) (whole_mm_256_256 A W (wholeRow t r) j).symm)

theorem mm_256_128 {a : FVec Ideal Cert.KernelIdeal.S4096x256 φ₁} {A : FVec Ideal Cert.ReferenceIdeal.S16384x256 ψ₁}
    {w : FVec Ideal Cert.KernelIdeal.S256x128 φ₂} {W : FVec Ideal Cert.ReferenceIdeal.S256x128 ψ₂}
    (h : IsBlock t a A) (hw : ∀ i, w i = W i) :
    IsBlock t (matmul Cert.KernelIdeal.dot_S4096x256_S256x128_S4096x128_1_0_0_1_n_n none a w (constant Cert.KernelIdeal.S4096x128 .f32 0x00000000#32))
      (Host.dotGeneral Cert.ReferenceIdeal.dot_S16384x256_S256x128_S16384x128_1_0_0_1_n_n none A W) := fun r j =>
  (block_mm_256_128 a w r j).trans (Eq.trans (Finset.sum_congr rfl fun k _ => by rw [h r k, hw]) (whole_mm_256_128 A W (wholeRow t r) j).symm)

end IsBlock

end Cert.RowBlocks

end
-- ==== Proof.KernelRows.lean ====
/-
  The kernel's arithmetic on one block of rows, against the reference's on all rows.

  The program is two rounds of (a dense layer with ReLU on the user rows; the cross-compress unit on the item and
  head rows), then three dense layers with ReLU on the user and item rows joined side by side. Each of these units
  keeps the relation "block `t` of 4096 rows" (`Cert.RowBlocks.IsBlock`), since each acts row by row: a dense layer
  is x ↦ max(x·W + b, 0) with the product contracted along the row; the cross-compress unit sends the pair of rows
  (v, e) to v·⟨e, w₁⟩ + e·⟨v, w₂⟩ + β, where the two inner products are numbers computed from the same two rows.
  The kernel narrows the operands of its large products to bf16 first; at the extended reals that changes nothing.
  Composing the units in the program's order gives: what the kernel stores for block `t` is block `t` of the
  reference's last stage before its final reshape.
-/
import proofs.«116850_j90494960927208_1_alg».proof.Proof.RowBlocks
import proofs.«116850_j90494960927208_1_alg».proof.Proof.Gen.KernelIdeal.Skeleton
import proofs.«116850_j90494960927208_1_alg».proof.Proof.Gen.ReferenceIdeal.Read

noncomputable section

namespace Cert.KernelRows

open Idealize.ShloMosaic Idealize.ShloMosaic.TcCoe Idealize.ShloMosaic.ValueIdx Cert.RowBlocks
open Cert.KernelIdeal.Gen Cert.ReferenceIdeal.Read

variable {t : Fin 4}

/-! ## The units -/

section Units
variable {φ₂ : FTy}

/-- A dense layer with ReLU, 128 → 128: max(x·W + b, 0) row by row. -/
theorem dense_128_128 {a : FVec Ideal Cert.KernelIdeal.S4096x128 .f32} {A : FVec Ideal Cert.ReferenceIdeal.S16384x128 .f32} (h : IsBlock t a A)
    {w' : FVec Ideal Cert.KernelIdeal.S128x128 φ₂} {W : FVec Ideal Cert.ReferenceIdeal.S128x128 .f32} (hw : ∀ i, w' i = W i) (b : FVec Ideal Cert.KernelIdeal.S128 .f32)
    (hn : FTy.bits .bf16 < FTy.bits .f32) (h1 : Cert.KernelIdeal.S128.ShapeCasts Cert.KernelIdeal.S1x128) (h2 : Cert.KernelIdeal.S1x128.Broadcasts Cert.KernelIdeal.S4096x128)
    (h3 : Cert.ReferenceIdeal.S128.BroadcastsInDim Cert.ReferenceIdeal.S1x128 ![1]) (h4 : Cert.ReferenceIdeal.S1x128.BroadcastsInDim Cert.ReferenceIdeal.S16384x128 ![0, 1])
    (hz : Cert.ReferenceIdeal.S_.BroadcastsInDim Cert.ReferenceIdeal.S16384x128 ![]) :
    IsBlock t
      (maximumf (addf (matmul Cert.KernelIdeal.dot_S4096x128_S128x128_S4096x128_1_0_0_1_n_n none (truncf .bf16 a hn) w' (constant Cert.KernelIdeal.S4096x128 .f32 0x00000000#32))
          (broadcastTo Cert.KernelIdeal.S4096x128 (shapeCast Cert.KernelIdeal.S1x128 b h1) h2)) (broadcast Cert.KernelIdeal.S4096x128 (Scalar.ofBits .f32 0x00000000#32)))
      (maximumf (addf (Host.dotGeneral Cert.ReferenceIdeal.dot_S16384x128_S128x128_S16384x128_1_0_0_1_n_n none A W)
          (broadcastInDim Cert.ReferenceIdeal.S16384x128 ![0, 1] h4 (broadcastInDim Cert.ReferenceIdeal.S1x128 ![1] h3 b)))
        (broadcastInDim Cert.ReferenceIdeal.S16384x128 ![] hz (constant Cert.ReferenceIdeal.S_ .f32 0x00000000#32))) :=
  (((h.narrow hn).mm_128_128 hw).add (IsBlock.rowvec (fun _ => rfl) h1 h2 h3 h4)).max (IsBlock.splat _ (fun _ => rfl) hz)

/-- A dense layer with ReLU, 256 → 256. -/
theorem dense_256_256 {a : FVec Ideal Cert.KernelIdeal.S4096x256 .f32} {A : FVec Ideal Cert.ReferenceIdeal.S16384x256 .f32} (h : IsBlock t a A)
    {w' : FVec Ideal Cert.KernelIdeal.S256x256 φ₂} {W : FVec Ideal Cert.ReferenceIdeal.S256x256 .f32} (hw : ∀ i, w' i = W i) (b : FVec Ideal Cert.KernelIdeal.S256 .f32)
    (hn : FTy.bits .bf16 < FTy.bits .f32) (h1 : Cert.KernelIdeal.S256.ShapeCasts Cert.KernelIdeal.S1x256) (h2 : Cert.KernelIdeal.S1x256.Broadcasts Cert.KernelIdeal.S4096x256)
    (h3 : Cert.ReferenceIdeal.S256.BroadcastsInDim Cert.ReferenceIdeal.S1x256 ![1]) (h4 : Cert.ReferenceIdeal.S1x256.BroadcastsInDim Cert.ReferenceIdeal.S16384x256 ![0, 1])
    (hz : Cert.ReferenceIdeal.S_.BroadcastsInDim Cert.ReferenceIdeal.S16384x256 ![]) :
    IsBlock t
      (maximumf (addf (matmul Cert.KernelIdeal.dot_S4096x256_S256x256_S4096x256_1_0_0_1_n_n none (truncf .bf16 a hn) w' (constant Cert.KernelIdeal.S4096x256 .f32 0x00000000#32))
          (broadcastTo Cert.KernelIdeal.S4096x256 (shapeCast Cert.KernelIdeal.S1x256 b h1) h2)) (broadcast Cert.KernelIdeal.S4096x256 (Scalar.ofBits .f32 0x00000000#32)))
      (maximumf (addf (Host.dotGeneral Cert.ReferenceIdeal.dot_S16384x256_S256x256_S16384x256_1_0_0_1_n_n none A W)
          (broadcastInDim Cert.ReferenceIdeal.S16384x256 ![0, 1] h4 (broadcastInDim Cert.ReferenceIdeal.S1x256 ![1] h3 b)))
        (broadcastInDim Cert.ReferenceIdeal.S16384x256 ![] hz (constant Cert.ReferenceIdeal.S_ .f32 0x00000000#32))) :=
  (((h.narrow hn).mm_256_256 hw).add (IsBlock.rowvec (fun _ => rfl) h1 h2 h3 h4)).max (IsBlock.splat _ (fun _ => rfl) hz)

/-- A dense layer with ReLU, 256 → 128. -/
theorem dense_256_128 {a : FVec Ideal Cert.KernelIdeal.S4096x256 .f32} {A : FVec Ideal Cert.ReferenceIdeal.S16384x256 .f32} (h : IsBlock t a A)
    {w' : FVec Ideal Cert.KernelIdeal.S256x128 φ₂} {W : FVec Ideal Cert.ReferenceIdeal.S256x128 .f32} (hw : ∀ i, w' i = W i) (b : FVec Ideal Cert.KernelIdeal.S128 .f32)
    (hn : FTy.bits .bf16 < FTy.bits .f32) (h1 : Cert.KernelIdeal.S128.ShapeCasts Cert.KernelIdeal.S1x128) (h2 : Cert.KernelIdeal.S1x128.Broadcasts Cert.KernelIdeal.S4096x128)
    (h3 : Cert.ReferenceIdeal.S128.BroadcastsInDim Cert.ReferenceIdeal.S1x128 ![1]) (h4 : Cert.ReferenceIdeal.S1x128.BroadcastsInDim Cert.ReferenceIdeal.S16384x128 ![0, 1])
    (hz : Cert.ReferenceIdeal.S_.BroadcastsInDim Cert.ReferenceIdeal.S16384x128 ![]) :
    IsBlock t
      (maximumf (addf (matmul Cert.KernelIdeal.dot_S4096x256_S256x128_S4096x128_1_0_0_1_n_n none (truncf .bf16 a hn) w' (constant Cert.KernelIdeal.S4096x128 .f32 0x00000000#32))
          (broadcastTo Cert.KernelIdeal.S4096x128 (shapeCast Cert.KernelIdeal.S1x128 b h1) h2)) (broadcast Cert.KernelIdeal.S4096x128 (Scalar.ofBits .f32 0x00000000#32)))
      (maximumf (addf (Host.dotGeneral Cert.ReferenceIdeal.dot_S16384x256_S256x128_S16384x128_1_0_0_1_n_n none A W)
          (broadcastInDim Cert.ReferenceIdeal.S16384x128 ![0, 1] h4 (broadcastInDim Cert.ReferenceIdeal.S1x128 ![1] h3 b)))
        (broadcastInDim Cert.ReferenceIdeal.S16384x128 ![] hz (constant Cert.ReferenceIdeal.S_ .f32 0x00000000#32))) :=
  (((h.narrow hn).mm_256_128 hw).add (IsBlock.rowvec (fun _ => rfl) h1 h2 h3 h4)).max (IsBlock.splat _ (fun _ => rfl) hz)

/-- The last dense layer with ReLU, 128 → 1, its bias one number. -/
theorem dense_128_1 {a : FVec Ideal Cert.KernelIdeal.S4096x128 .f32} {A : FVec Ideal Cert.ReferenceIdeal.S16384x128 .f32} (h : IsBlock t a A)
    {w' : FVec Ideal Cert.KernelIdeal.S128x1 φ₂} {W : FVec Ideal Cert.ReferenceIdeal.S128x1 .f32} (hw : ∀ i, w' i = W i) (b : FVec Ideal Cert.KernelIdeal.S1 .f32)
    (hn : FTy.bits .bf16 < FTy.bits .f32) (h1 : Cert.KernelIdeal.S1.ShapeCasts Cert.KernelIdeal.S1x1) (h2 : Cert.KernelIdeal.S1x1.Broadcasts Cert.KernelIdeal.S4096x1)
    (h3 : Cert.ReferenceIdeal.S1.BroadcastsInDim Cert.ReferenceIdeal.S1x1 ![1]) (h4 : Cert.ReferenceIdeal.S1x1.BroadcastsInDim Cert.ReferenceIdeal.S16384x1 ![0, 1])
    (hz : Cert.ReferenceIdeal.S_.BroadcastsInDim Cert.ReferenceIdeal.S16384x1 ![]) :
    IsBlock t
      (maximumf (addf (matmul Cert.KernelIdeal.dot_S4096x128_S128x1_S4096x1_1_0_0_1_n_n none (truncf .bf16 a hn) w' (constant Cert.KernelIdeal.S4096x1 .f32 0x00000000#32))
          (broadcastTo Cert.KernelIdeal.S4096x1 (shapeCast Cert.KernelIdeal.S1x1 b h1) h2)) (broadcast Cert.KernelIdeal.S4096x1 (Scalar.ofBits .f32 0x00000000#32)))
      (maximumf (addf (Host.dotGeneral Cert.ReferenceIdeal.dot_S16384x128_S128x1_S16384x1_1_0_0_1_n_n none A W)
          (broadcastInDim Cert.ReferenceIdeal.S16384x1 ![0, 1] h4 (broadcastInDim Cert.ReferenceIdeal.S1x1 ![1] h3 b)))
        (broadcastInDim Cert.ReferenceIdeal.S16384x1 ![] hz (constant Cert.ReferenceIdeal.S_ .f32 0x00000000#32))) :=
  (((h.narrow hn).mm_128_1 hw).add (IsBlock.scalar (fun _ => rfl) h1 h2 h3 h4)).max (IsBlock.splat _ (fun _ => rfl) hz)

/-- One half of the cross-compress unit: v·p + e·q + β, where p and q are columns holding one number per row. -/
theorem cross {v e : FVec Ideal Cert.KernelIdeal.S4096x128 .f32} {V E : FVec Ideal Cert.ReferenceIdeal.S16384x128 .f32} (hv : IsBlock t v V) (he : IsBlock t e E)
    {p q : FVec Ideal Cert.KernelIdeal.S4096x1 .f32} {P Q : FVec Ideal Cert.ReferenceIdeal.S16384x1 .f32} (hp : IsBlock t p P) (hq : IsBlock t q Q)
    (β : FVec Ideal Cert.KernelIdeal.S1 .f32)
    (hc : Cert.KernelIdeal.S4096x1.Broadcasts Cert.KernelIdeal.S4096x128) (hc' : Cert.ReferenceIdeal.S16384x1.BroadcastsInDim Cert.ReferenceIdeal.S16384x128 ![0, 1])
    (h1 : Cert.KernelIdeal.S1.ShapeCasts Cert.KernelIdeal.S1x1) (h2 : Cert.KernelIdeal.S1x1.Broadcasts Cert.KernelIdeal.S4096x128)
    (h3 : Cert.ReferenceIdeal.S1.BroadcastsInDim Cert.ReferenceIdeal.S1x1 ![1]) (h4 : Cert.ReferenceIdeal.S1x1.BroadcastsInDim Cert.ReferenceIdeal.S16384x128 ![0, 1]) :
    IsBlock t
      (addf (addf (mulf v (broadcastTo Cert.KernelIdeal.S4096x128 p hc)) (mulf e (broadcastTo Cert.KernelIdeal.S4096x128 q hc)))
        (broadcastTo Cert.KernelIdeal.S4096x128 (shapeCast Cert.KernelIdeal.S1x1 β h1) h2))
      (addf (addf (mulf V (broadcastInDim Cert.ReferenceIdeal.S16384x128 ![0, 1] hc' P)) (mulf E (broadcastInDim Cert.ReferenceIdeal.S16384x128 ![0, 1] hc' Q)))
        (broadcastInDim Cert.ReferenceIdeal.S16384x128 ![0, 1] h4 (broadcastInDim Cert.ReferenceIdeal.S1x1 ![1] h3 β))) :=
  ((hv.mul (hp.column hc hc')).add (he.mul (hq.column hc hc'))).add (IsBlock.scalar (fun _ => rfl) h1 h2 h3 h4)

end Units

/-! ## The program, unit by unit -/

section Program
open Cert.ReferenceIdeal

variable (x0 x1 : (⟨S16384, .i32⟩ : BufTy).Contents (Elt Ideal)) (x3 : (⟨S100000x128, .f32⟩ : BufTy).Contents (Elt Ideal))
  (x4 x5 : (⟨S50000x128, .f32⟩ : BufTy).Contents (Elt Ideal)) (x6 x7 x8 x9 : (⟨S128x1, .f32⟩ : BufTy).Contents (Elt Ideal))
  (x10 x11 : (⟨S1, .f32⟩ : BufTy).Contents (Elt Ideal)) (x12 : (⟨S128x128, .f32⟩ : BufTy).Contents (Elt Ideal))
  (x13 : (⟨S128, .f32⟩ : BufTy).Contents (Elt Ideal)) (x14 : (⟨S256x256, .f32⟩ : BufTy).Contents (Elt Ideal))
  (x15 : (⟨S256, .f32⟩ : BufTy).Contents (Elt Ideal)) (x16 : (⟨S256x128, .f32⟩ : BufTy).Contents (Elt Ideal))
  (x17 : (⟨S128, .f32⟩ : BufTy).Contents (Elt Ideal)) (x18 : (⟨S128x1, .f32⟩ : BufTy).Contents (Elt Ideal))
  (x19 : (⟨S1, .f32⟩ : BufTy).Contents (Elt Ideal))
variable {b0 b1 b2 : FVec Ideal Cert.KernelIdeal.S4096x128 .f32}

/-- The item rows as the body first holds them (a cast to their own shape). -/
theorem item0 (h1 : IsBlock (ψ := .f32) t b1 (val_main_v13 x1 x4)) : IsBlock (ψ := .f32) t (k0_pay2 (F := Ideal) b1) (val_main_v13 x1 x4) := by
  unfold k0_pay2; exact h1.recast _

/-- The head rows likewise. -/
theorem head0 (h2 : IsBlock (ψ := .f32) t b2 (val_main_v20 x1 x5)) : IsBlock (ψ := .f32) t (k0_pay3 (F := Ideal) b2) (val_main_v20 x1 x5) := by
  unfold k0_pay3; exact h2.recast _

/-- Round one on the user rows: max(u·Wu + bu, 0). -/
theorem user1 (h0 : IsBlock (ψ := .f32) t b0 (val_main_v6 x0 x3)) :
    IsBlock (ψ := .f32) t (k0_pay5 (F := Ideal) b0 x12 x13) (val_main_v25 x0 x3 x12 x13) := by
  unfold k0_pay5 k0_pay4 val_main_v25 val_main_v24 val_main_v21 val_main_v23 val_main_v22 val_main_call0_v0 val_main_call0_cst
  exact dense_128_128 (h0.recast _) (fun _ => rfl) x13 _ _ _ _ _ _

/-- ⟨head, w_ve⟩, one number per row. -/
theorem he1 (h2 : IsBlock (ψ := .f32) t b2 (val_main_v20 x1 x5)) : IsBlock (ψ := .f32) t (k0_pay6 (F := Ideal) b2 x8) (val_main_v28 x1 x5 x8) := by
  unfold k0_pay6 val_main_v28; exact (head0 x1 x5 h2).mm_128_1 (fun _ => rfl)

/-- ⟨item, w_ee⟩, one number per row. -/
theorem ie1 (h1 : IsBlock (ψ := .f32) t b1 (val_main_v13 x1 x4)) : IsBlock (ψ := .f32) t (k0_pay7 (F := Ideal) b1 x9) (val_main_v29 x1 x4 x9) := by
  unfold k0_pay7 val_main_v29; exact (item0 x1 x4 h1).mm_128_1 (fun _ => rfl)

/-- Round one on the item rows: item·⟨head, w_vv⟩ + head·⟨item, w_ev⟩ + bias_v. -/
theorem item1 (h1 : IsBlock (ψ := .f32) t b1 (val_main_v13 x1 x4)) (h2 : IsBlock (ψ := .f32) t b2 (val_main_v20 x1 x5)) :
    IsBlock (ψ := .f32) t (k0_pay8 (F := Ideal) b1 b2 x6 x7 x10) (val_main_v37 x1 x4 x5 x6 x7 x10) := by
  unfold k0_pay8 val_main_v37 val_main_v36 val_main_v35 val_main_v34 val_main_v33 val_main_v32 val_main_v31 val_main_v30 val_main_v27 val_main_v26
  exact cross (item0 x1 x4 h1) (head0 x1 x5 h2) ((head0 x1 x5 h2).mm_128_1 (fun _ => rfl)) ((item0 x1 x4 h1).mm_128_1 (fun _ => rfl)) x10 _ _ _ _ _ _

/-- Round one on the head rows: item·⟨head, w_ve⟩ + head·⟨item, w_ee⟩ + bias_e, from the two inner products. -/
theorem head1 {v3 v5 : FVec Ideal Cert.KernelIdeal.S4096x128 .f32} {v24 v25 : FVec Ideal Cert.KernelIdeal.S4096x1 .f32}
    (hv3 : IsBlock (ψ := .f32) t v3 (val_main_v13 x1 x4)) (hv5 : IsBlock (ψ := .f32) t v5 (val_main_v20 x1 x5))
    (hv24 : IsBlock (ψ := .f32) t v24 (val_main_v28 x1 x5 x8)) (hv25 : IsBlock (ψ := .f32) t v25 (val_main_v29 x1 x4 x9))
    (hc : Cert.KernelIdeal.S4096x1.Broadcasts Cert.KernelIdeal.S4096x128) (h1 : Cert.KernelIdeal.S1.ShapeCasts Cert.KernelIdeal.S1x1) (h2 : Cert.KernelIdeal.S1x1.Broadcasts Cert.KernelIdeal.S4096x128) :
    IsBlock (ψ := .f32) t (addf (addf (mulf v3 (broadcastTo Cert.KernelIdeal.S4096x128 v24 hc)) (mulf v5 (broadcastTo Cert.KernelIdeal.S4096x128 v25 hc)))
        (broadcastTo Cert.KernelIdeal.S4096x128 (shapeCast Cert.KernelIdeal.S1x1 x11 h1) h2)) (val_main_v45 x1 x4 x5 x8 x9 x11) := by
  unfold val_main_v45 val_main_v44 val_main_v43 val_main_v42 val_main_v41 val_main_v40 val_main_v39 val_main_v38
  exact cross hv3 hv5 hv24 hv25 x11 hc _ h1 h2 _ _

/-- From round one's results to the end of the second hidden layer: round two (the user rows' dense layer; the item
    rows' cross term, which reads round one's head rows), the two joined side by side, then 256 → 256 → 128 with ReLU. -/
theorem hidden {v3 v5 v21 v33 : FVec Ideal Cert.KernelIdeal.S4096x128 .f32} {v7 : FVec Ideal Cert.KernelIdeal.S128x128 .bf16} {v24 v25 : FVec Ideal Cert.KernelIdeal.S4096x1 .f32}
    (hv3 : IsBlock (ψ := .f32) t v3 (val_main_v13 x1 x4)) (hv5 : IsBlock (ψ := .f32) t v5 (val_main_v20 x1 x5)) (hv7 : ∀ i, v7 i = x12 i)
    (hv21 : IsBlock (ψ := .f32) t v21 (val_main_v25 x0 x3 x12 x13))
    (hv24 : IsBlock (ψ := .f32) t v24 (val_main_v28 x1 x5 x8)) (hv25 : IsBlock (ψ := .f32) t v25 (val_main_v29 x1 x4 x9))
    (hv33 : IsBlock (ψ := .f32) t v33 (val_main_v37 x1 x4 x5 x6 x7 x10)) :
    IsBlock (ψ := .f32) t (k0_pay9 (F := Ideal) v3 v5 v7 x13 x6 x7 x10 x11 v21 v24 v25 v33 x14 x15 x16 x17) (val_main_v81 x0 x1 x3 x4 x5 x6 x7 x8 x9 x10 x11 x12 x13 x14 x15 x16 x17) := by
  have H := fun hc h1 h2 => head1 x1 x4 x5 x8 x9 x11 hv3 hv5 hv24 hv25 hc h1 h2
  unfold k0_pay9
  unfold val_main_v81 val_main_v80 val_main_v79 val_main_v78 val_main_v77 val_main_v76 val_main_v75 val_main_v74 val_main_v73 val_main_v72
    val_main_v71 val_main_v62 val_main_v61 val_main_v60 val_main_v59 val_main_v58 val_main_v57 val_main_v56 val_main_v55 val_main_v52 val_main_v51
    val_main_v50 val_main_v49 val_main_v48 val_main_v47 val_main_v46
    val_main_call3_v0 val_main_call3_cst val_main_call2_v0 val_main_call2_cst val_main_call1_v0 val_main_call1_cst
  exact dense_256_128
    (dense_256_256
      (IsBlock.join (dense_128_128 hv21 hv7 x13 _ _ _ _ _ _)
        (cross hv33 (H _ _ _) ((H _ _ _).mm_128_1 (fun _ => rfl)) (hv33.mm_128_1 (fun _ => rfl)) x10 _ _ _ _ _ _) _ _)
      (fun _ => rfl) x15 _ _ _ _ _ _)
    (fun _ => rfl) x17 _ _ _ _ _ _

/-- WHAT THE KERNEL STORES FOR BLOCK `t`: if the three gathered blocks are block `t` of the three gathered arrays,
    the stored column is block `t` of the reference's last column. -/
theorem stored (h0 : IsBlock (ψ := .f32) t b0 (val_main_v6 x0 x3)) (h1 : IsBlock (ψ := .f32) t b1 (val_main_v13 x1 x4)) (h2 : IsBlock (ψ := .f32) t b2 (val_main_v20 x1 x5)) :
    IsBlock (ψ := .f32) t
      (k0_pay1 (F := Ideal)
        (k0_pay9 (k0_pay2 b1) (k0_pay3 b2) (k0_pay4 x12) x13 x6 x7 x10 x11 (k0_pay5 b0 x12 x13) (k0_pay6 b2 x8) (k0_pay7 b1 x9)
          (k0_pay8 b1 b2 x6 x7 x10) x14 x15 x16 x17) x18 x19)
      (val_main_v86 x0 x1 x3 x4 x5 x6 x7 x8 x9 x10 x11 x12 x13 x14 x15 x16 x17 x18 x19) := by
  unfold k0_pay1 val_main_v86 val_main_v85 val_main_v84 val_main_v83 val_main_v82 val_main_call4_v0 val_main_call4_cst
  exact dense_128_1
    (hidden x0 x1 x3 x4 x5 x6 x7 x8 x9 x10 x11 x12 x13 x14 x15 x16 x17 (item0 x1 x4 h1) (head0 x1 x5 h2) (fun _ => rfl) (user1 x0 x3 x12 x13 h0) (he1 x1 x5 x8 h2) (ie1 x1 x4 x9 h1)
      (item1 x1 x4 x5 x6 x7 x10 h1 h2))
    (fun _ => rfl) x19 _ _ _ _ _ _

end Program

end Cert.KernelRows

end
-- ==== Proof.KernelWhole.lean ====
/-
  The kernel's result array, whole.

  Grid point `t` stages rows 4096·t … 4096·t + 4095 of each of the three gathered arrays (its index map is
  `t ↦ (t, 0)` over blocks of 4096 × 128) and every weight whole (index map constant `0`), and writes back rows
  4096·t … 4096·t + 4095 of the one output column. By the row-block argument what it writes is those rows of the
  reference's last column, so after the four points — whose blocks cover the 16384 rows — the output array IS that
  column, and the reshape after the region makes it the reference's result.
-/
import proofs.«116850_j90494960927208_1_alg».proof.Proof.GatheredRows
import proofs.«116850_j90494960927208_1_alg».proof.Proof.KernelRows
import proofs.«116850_j90494960927208_1_alg».proof.Proof.Gen.KernelIdeal.Frame
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.RowBlocks
open Cert.ReferenceIdeal.Read (val_main_v6 val_main_v13 val_main_v20 val_main_v86 val_main_v87)

variable (m : (ℓ : Loc nD τ sig) → Buf (Elt Ideal) ℓ) (ρ : Dev nD → PrngReg)

/-! ## The grid -/

/-- A grid point as a number below four. -/
def pt (t : Fin cfg0.N) : Fin 4 := ⟨t.val, Nat.lt_of_lt_of_eq t.isLt (show cfg0.N = 4 from N_0)⟩

/-- The printed index maps, decided over the four points: the three streamed operands and the output move down the
    rows with the point, `t ↦ (t, 0)`. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_17.index t (0 : Fin 2) = t.val ∧ win0_17.index t (1 : Fin 2) = 0 :=
  (by decide +kernel : ∀ t : Fin grid0.N, _)

/-! ## The streamed blocks are blocks of rows -/

/-- Window 0's block at point `t`, read at (r, j), is the user rows' array at (4096·t + r, j). -/
theorem user_blk_apply (c : Dev nD) (t : Fin cfg0.N) (r : Fin 4096) (j : Fin 128) :
    (iblk m c 0 t : Vec Ideal S4096x128 .f32) (ix2 r j) = (V m c main_v6 : S16384x128.Idx → Elt Ideal .f32) (ix2 (wholeRow (pt t) r) j) := by
  obtain ⟨e0, e1, -⟩ := idx_rows t
  unfold iblk
  rw [View.read_apply]
  show V m c main_v6 _ = V m c main_v6 _
  refine congrArg (V m c main_v6) (funext fun a => Fin.ext ?_)
  match a with
  | ⟨0, _⟩ => show win0_0.index t (0 : Fin 2) * 4096 + 1 * r.val = 4096 * t.val + r.val; rw [e0]; omega
  | ⟨1, _⟩ => show win0_0.index t (1 : Fin 2) * 128 + 1 * j.val = j.val; rw [e1]; omega

/-- Window 1's block at point `t` is the same rows of the item rows' array. -/
theorem item_blk_apply (c : Dev nD) (t : Fin cfg0.N) (r : Fin 4096) (j : Fin 128) :
    (iblk m c 1 t : Vec Ideal S4096x128 .f32) (ix2 r j) = (V m c main_v13 : S16384x128.Idx → Elt Ideal .f32) (ix2 (wholeRow (pt t) r) j) := by
  obtain ⟨-, -, e0, e1, -⟩ := idx_rows t
  unfold iblk
  rw [View.read_apply]
  show V m c main_v13 _ = V m c main_v13 _
  refine congrArg (V m c main_v13) (funext fun a => Fin.ext ?_)
  match a with
  | ⟨0, _⟩ => show win0_1.index t (0 : Fin 2) * 4096 + 1 * r.val = 4096 * t.val + r.val; rw [e0]; omega
  | ⟨1, _⟩ => show win0_1.index t (1 : Fin 2) * 128 + 1 * j.val = j.val; rw [e1]; omega

/-- Window 2's block at point `t` is the same rows of the head rows' array. -/
theorem head_blk_apply (c : Dev nD) (t : Fin cfg0.N) (r : Fin 4096) (j : Fin 128) :
    (iblk m c 2 t : Vec Ideal S4096x128 .f32) (ix2 r j) = (V m c main_v20 : S16384x128.Idx → Elt Ideal .f32) (ix2 (wholeRow (pt t) r) j) := by
  obtain ⟨-, -, -, -, e0, e1, -⟩ := idx_rows t
  unfold iblk
  rw [View.read_apply]
  show V m c main_v20 _ = V m c main_v20 _
  refine congrArg (V m c main_v20) (funext fun a => Fin.ext ?_)
  match a with
  | ⟨0, _⟩ => show win0_2.index t (0 : Fin 2) * 4096 + 1 * r.val = 4096 * t.val + r.val; rw [e0]; omega
  | ⟨1, _⟩ => show win0_2.index t (1 : Fin 2) * 128 + 1 * j.val = j.val; rw [e1]; omega

/-- So the three streamed blocks are block `t` of the reference's three gathers of the arguments. -/
theorem user_blk (c : Dev nD) (t : Fin cfg0.N) :
    IsBlock (φ := .f32) (ψ := .f32) (pt t) (iblk m c 0 t : Vec Ideal S4096x128 .f32)
      (val_main_v6 (F := Ideal) (m ((c : Thread nD τ).loc main_arg0)) (m ((c : Thread nD τ).loc main_arg3))) := fun r j =>
  (user_blk_apply m c t r j).trans (congrFun (V_user m c) _)

theorem item_blk (c : Dev nD) (t : Fin cfg0.N) :
    IsBlock (φ := .f32) (ψ := .f32) (pt t) (iblk m c 1 t : Vec Ideal S4096x128 .f32)
      (val_main_v13 (F := Ideal) (m ((c : Thread nD τ).loc main_arg1)) (m ((c : Thread nD τ).loc main_arg4))) := fun r j =>
  (item_blk_apply m c t r j).trans (congrFun (V_item m c) _)

theorem head_blk (c : Dev nD) (t : Fin cfg0.N) :
    IsBlock (φ := .f32) (ψ := .f32) (pt t) (iblk m c 2 t : Vec Ideal S4096x128 .f32)
      (val_main_v20 (F := Ideal) (m ((c : Thread nD τ).loc main_arg1)) (m ((c : Thread nD τ).loc main_arg5))) := fun r j =>
  (head_blk_apply m c t r j).trans (congrFun (V_head m c) _)

/-! ## The weights' blocks are the weights -/

/-- A window whose index map is constantly zero and whose block is its whole array stages the array: an entry of the
    block is the entry of the array at the same coordinates (block index zero times the extent, plus the coordinate). -/
local macro "whole2 " t:term ", " w:term ", " hV:term ", " Vb:term ", " n0:num ", " n1:num : tactic => `(tactic| (
  funext y
  have hi := (by decide +kernel : ∀ s : Fin grid0.N, ($w).index s (0 : Fin 2) = 0 ∧ ($w).index s (1 : Fin 2) = 0) $t
  unfold iblk
  rw [View.read_apply]
  refine Eq.trans ?_ (congrFun $hV y)
  show $Vb _ = $Vb y
  refine congrArg $Vb (funext fun a => Fin.ext ?_)
  match a with
  | ⟨0, _⟩ => show ($w).index $t (0 : Fin 2) * $n0 + 1 * (y 0).val = (y 0).val; rw [hi.1]; omega
  | ⟨1, _⟩ => show ($w).index $t (1 : Fin 2) * $n1 + 1 * (y 1).val = (y 1).val; rw [hi.2]; omega))

/-- The same for a vector. -/
local macro "whole1 " t:term ", " w:term ", " hV:term ", " Vb:term ", " n0:num : tactic => `(tactic| (
  funext y
  have hi := (by decide +kernel : ∀ s : Fin grid0.N, ($w).index s (0 : Fin 1) = 0) $t
  unfold iblk
  rw [View.read_apply]
  refine Eq.trans ?_ (congrFun $hV y)
  show $Vb _ = $Vb y
  refine congrArg $Vb (funext fun a => Fin.ext ?_)
  match a with
  | ⟨0, _⟩ => show ($w).index $t (0 : Fin 1) * $n0 + 1 * (y 0).val = (y 0).val; rw [hi]; omega))

theorem Wu_blk (c : Dev nD) (t : Fin cfg0.N) : (iblk m c 3 t : Vec Ideal S128x128 .f32) = m ((c : Thread nD τ).loc main_arg12) := by
  whole2 t, win0_3, V_main_arg12 m c, V m c main_arg12, 128, 128
theorem bu_blk (c : Dev nD) (t : Fin cfg0.N) : (iblk m c 4 t : Vec Ideal S128 .f32) = m ((c : Thread nD τ).loc main_arg13) := by
  whole1 t, win0_4, V_main_arg13 m c, V m c main_arg13, 128
theorem wvv_blk (c : Dev nD) (t : Fin cfg0.N) : (iblk m c 5 t : Vec Ideal S128x1 .f32) = m ((c : Thread nD τ).loc main_arg6) := by
  whole2 t, win0_5, V_main_arg6 m c, V m c main_arg6, 128, 1
theorem wev_blk (c : Dev nD) (t : Fin cfg0.N) : (iblk m c 6 t : Vec Ideal S128x1 .f32) = m ((c : Thread nD τ).loc main_arg7) := by
  whole2 t, win0_6, V_main_arg7 m c, V m c main_arg7, 128, 1
theorem wve_blk (c : Dev nD) (t : Fin cfg0.N) : (iblk m c 7 t : Vec Ideal S128x1 .f32) = m ((c : Thread nD τ).loc main_arg8) := by
  whole2 t, win0_7, V_main_arg8 m c, V m c main_arg8, 128, 1
theorem wee_blk (c : Dev nD) (t : Fin cfg0.N) : (iblk m c 8 t : Vec Ideal S128x1 .f32) = m ((c : Thread nD τ).loc main_arg9) := by
  whole2 t, win0_8, V_main_arg9 m c, V m c main_arg9, 128, 1
theorem biasv_blk (c : Dev nD) (t : Fin cfg0.N) : (iblk m c 9 t : Vec Ideal S1 .f32) = m ((c : Thread nD τ).loc main_arg10) := by
  whole1 t, win0_9, V_main_arg10 m c, V m c main_arg10, 1
theorem biase_blk (c : Dev nD) (t : Fin cfg0.N) : (iblk m c 10 t : Vec Ideal S1 .f32) = m ((c : Thread nD τ).loc main_arg11) := by
  whole1 t, win0_10, V_main_arg11 m c, V m c main_arg11, 1
theorem W1_blk (c : Dev nD) (t : Fin cfg0.N) : (iblk m c 11 t : Vec Ideal S256x256 .f32) = m ((c : Thread nD τ).loc main_arg14) := by
  whole2 t, win0_11, V_main_arg14 m c, V m c main_arg14, 256, 256
theorem b1_blk (c : Dev nD) (t : Fin cfg0.N) : (iblk m c 12 t : Vec Ideal S256 .f32) = m ((c : Thread nD τ).loc main_arg15) := by
  whole1 t, win0_12, V_main_arg15 m c, V m c main_arg15, 256
theorem W2_blk (c : Dev nD) (t : Fin cfg0.N) : (iblk m c 13 t : Vec Ideal S256x128 .f32) = m ((c : Thread nD τ).loc main_arg16) := by
  whole2 t, win0_13, V_main_arg16 m c, V m c main_arg16, 256, 128
theorem b2_blk (c : Dev nD) (t : Fin cfg0.N) : (iblk m c 14 t : Vec Ideal S128 .f32) = m ((c : Thread nD τ).loc main_arg17) := by
  whole1 t, win0_14, V_main_arg17 m c, V m c main_arg17, 128
theorem W3_blk (c : Dev nD) (t : Fin cfg0.N) : (iblk m c 15 t : Vec Ideal S128x1 .f32) = m ((c : Thread nD τ).loc main_arg18) := by
  whole2 t, win0_15, V_main_arg18 m c, V m c main_arg18, 128, 1
theorem b3_blk (c : Dev nD) (t : Fin cfg0.N) : (iblk m c 16 t : Vec Ideal S1 .f32) = m ((c : Thread nD τ).loc main_arg19) := by
  whole1 t, win0_16, V_main_arg19 m c, V m c main_arg19, 1

/-! ## What each point writes back, and the array after the run -/

/-- The reference's last column before its final reshape, of this program's argument arrays. -/
def column (c : Dev nD) : S16384x1.Idx → Elt Ideal .f32 :=
  val_main_v86 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))

theorem hz2 : (![0, 0] : Fin 2 → Nat) = fun _ => 0 := funext fun a => by fin_cases a <;> rfl
theorem hz1 : (![0] : Fin 1 → Nat) = fun _ => 0 := funext fun a => by fin_cases a <;> rfl

/-- WHAT POINT `t` WRITES BACK is rows 4096·t … 4096·t + 4095 of that column: the body's one store holds its
    arithmetic on the point's blocks, the weights' blocks are the weights, the three streamed blocks are block `t` of
    the gathered arrays, and the output's block at `t` sits at row offset 4096·t. -/
theorem flushed_eq (c : Dev nD) (t : Fin cfg0.N) :
    (dats m 0 c).flushed 17 t = ((cfg0.win 17).blk t).view.read (Elt Ideal) (column m c) := by
  show (cfg0.win 17).cut (grid0.coords t) ((dats m 0 c).after 17 t) = _
  rw [after0_17]
  unfold out0_17
  rw [View.canon_unit_zero hz2]
  simp only [View.ld_unit_zero (S := S4096x128) hz2, View.ld_unit_zero (S := S128x128) hz2, View.ld_unit_zero (S := S128) hz1,
    View.ld_unit_zero (S := S128x1) hz2, View.ld_unit_zero (S := S1) hz1, View.ld_unit_zero (S := S256x256) hz2,
    View.ld_unit_zero (S := S256) hz1, View.ld_unit_zero (S := S256x128) hz2]
  rw [Wu_blk m c t, bu_blk m c t, wvv_blk m c t, wev_blk m c t, wve_blk m c t, wee_blk m c t, biasv_blk m c t, biase_blk m c t,
    W1_blk m c t, b1_blk m c t, W2_blk m c t, b2_blk m c t, W3_blk m c t, b3_blk m c t]
  obtain ⟨-, -, -, -, -, -, e0, e1⟩ := idx_rows t
  funext (y : S4096x1.Idx)
  obtain ⟨r, j, rfl⟩ : ∃ (r : Fin 4096) (j : Fin 1), y = ix2 r j := ⟨y 0, y 1, eq_ix2 y⟩
  have hemb : ((cfg0.win 17).blk t).view.emb (ix2 r j) = ix2 (wholeRow (pt t) r) j := funext fun a => Fin.ext (by
    match a with
    | ⟨0, _⟩ => show win0_17.index t (0 : Fin 2) * 4096 + 1 * r.val = 4096 * t.val + r.val; rw [e0]; omega
    | ⟨1, _⟩ => show win0_17.index t (1 : Fin 2) * 1 + 1 * j.val = j.val; rw [e1]; omega)
  rw [View.read_apply, hemb]
  exact Cert.KernelRows.stored _ _ _ _ _ _ _ _ _ _ _ _ _ _ _ _ _ _ _ (user_blk m c t) (item_blk m c t) (head_blk m c t) r j

/-- The four blocks cover the column: row `i` lies in the block of point `i / 4096`. -/
theorem cover (c : Dev nD) (i : ((cfg0.win 17).arr.view.loc (c.tc : Thread nD τ)).2.ty.Idx) :
    ∃ t : Fin cfg0.N, (cfg0.win 17).flush t = true ∧ i ∈ ((cfg0.win 17).blk t).view.set := by
  have h0 : (i 0).val < 16384 := (i 0).isLt
  have h1 : (i 1).val < 1 := (i 1).isLt
  have hN : cfg0.N = 4 := N_0
  obtain ⟨t, ht⟩ : ∃ t : Fin cfg0.N, t.val = (i 0).val / 4096 := ⟨⟨(i 0).val / 4096, by rw [hN]; omega⟩, rfl⟩
  obtain ⟨-, -, -, -, -, -, e0, e1⟩ := idx_rows t
  refine ⟨t, flush0_17 t, ?_⟩
  show i ∈ ((View.whole main_v21).slice (win0_17.rect t)).set
  rw [View.set_slice_whole, Rect.mem_set_unit]
  intro a
  match a with
  | ⟨0, _⟩ =>
    show win0_17.index t (0 : Fin 2) * 4096 ≤ (i 0).val ∧ (i 0).val < win0_17.index t (0 : Fin 2) * 4096 + 4096
    rw [e0, ht]
    omega
  | ⟨1, _⟩ =>
    show win0_17.index t (1 : Fin 2) * 1 ≤ (i 1).val ∧ (i 1).val < win0_17.index t (1 : Fin 2) * 1 + 1
    rw [e1]
    omega

/-- THE ARRAY after the run is the reference's last column. -/
theorem final (c : Dev nD) : (dats m 0 c).arrAt 17 cfg0.N = column m c :=
  (dats m 0 c).arrAt_eq_of_cover 17 (column m c) (fun t _ => flushed_eq m c t) (cover c)

/-! ## The reshape after the region, and the run -/

/-- The program's first result: the output array reshaped to a vector, which is the reference's result term. -/
theorem tail_result (c : Dev nD) :
    Pipeline.afterTail₀ cfgs (dats m) 0 (V0 m) [hostOps1] c main_v22
      = val_main_v87 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) := by
  unfold Pipeline.afterTail₀
  show StableHlo.after hostOps1 _ (Proc.devRef .tc main_v22) = _
  after_results
  rw [(Pipeline.withArrays_arr spec0 launch0.win.arr_inj c _ _ 17).trans (final m c)]
  rfl

/-- The run, read: every weakly fair execution of the kernel's program ends with its first result at the reference's
    result term of the arguments and its second at the argument it returns. -/
theorem run_values : θ_run defs (onTc (τ := τ) (main (F := Ideal))) ⟨m, fun _ => 0, ρ⟩ fun r => ∀ c : Dev nD,
      r.2.mem ((c.tc : Thread nD τ).loc main_v22) = val_main_v87 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))
      ∧ r.2.mem ((c.tc : Thread nD τ).loc main_arg2) = m ((c.tc : Thread nD τ).loc main_arg2) :=
  (θ_run defs _ _).mono (fun _ h c =>
      ⟨((h c).2 main_v22 (Pipeline.mem_restRefs_of main_v22 (by decide) (by decide))).trans (tail_result m c),
       ((h c).2 main_arg2 (Pipeline.mem_restRefs_of main_arg2 (by decide) (by decide))).trans (W_main_arg2 m (dats m) c)⟩)
    (run_main m ρ)

end Cert.KernelIdeal.Whole

end
-- ==== Proof.LibRunBoth.lean ====
/-
  Two facts about one run hold together.

  "Every weakly fair execution terminates, faults nowhere and ends in a state satisfying Q" is a statement about
  the executions and, of the final states only, that they satisfy Q. So of one program from one initial state, a
  run to Q₁ and a run to Q₂ give a run to their conjunction: the executions are the same, and a final state
  satisfies both. (The library's runs are monotone in the post; this is the other half of their being conjunctive.)
  Nothing here depends on a program: it is a fact of the machine's observation.
-/
import Idealize.ShloMosaic.Machine.Run

namespace Idealize.ShloMosaic

open Idealize.SL.Sem

variable {nD : Nat} {τ : Topo} {sig : RefSig} {Val : EltTy → Type} {Λ : Labels}

/-- A run to `Q₁` and a run to `Q₂`, of the same programs from the same state, are a run to both. -/
theorem MeshRun.both {defs : Defs nD τ sig Val Λ} {Q₁ Q₂ : MemSt nD τ sig Val → Prop} {s : RunSt nD τ sig Val Λ}
    (h₁ : MeshRun defs Q₁ s) (h₂ : MeshRun defs Q₂ s) : MeshRun defs (fun m => Q₁ m ∧ Q₂ m) s :=
  ⟨fun t ht hf => ⟨h₁.post t ht hf, h₂.post t ht hf⟩, h₁.progress, h₁.fair⟩

/-- The same for the observation `θ_run`. -/
theorem θ_run_both (defs : Defs nD τ sig Val Λ) (p : (c : Thread nD τ) → Prog (TpuEff nD τ sig Val Λ c.2) PUnit)
    (s : MemSt nD τ sig Val) {Q₁ Q₂ : PUnit × MemSt nD τ sig Val → Prop}
    (h₁ : θ_run defs p s Q₁) (h₂ : θ_run defs p s Q₂) : θ_run defs p s (fun r => Q₁ r ∧ Q₂ r) :=
  MeshRun.both (Q₁ := fun m' => Q₁ (⟨⟩, m')) (Q₂ := fun m' => Q₂ (⟨⟩, m')) h₁ h₂

end Idealize.ShloMosaic
-- ==== Proof.lean ====
/-
  The five claims.

  Kernel and reference compute one function of the arguments. Both gather the three embedding arrays by the same
  host lines. The kernel then runs its fused layers on four blocks of 4096 rows, the reference the same layers on all
  16384 rows at once; every layer acts row by row, so block `t` of the kernel's output column is block `t` of the
  reference's (Proof/RowBlocks.lean, Proof/KernelRows.lean), the four blocks fill the column, and the reshape after
  the region makes it the reference's result (Proof/KernelWhole.lean). The second result is the `rec_target` argument,
  returned untouched by both. No law of arithmetic joins the two sides, only the same sums of the same entries, so
  the precondition (finite inputs) is never opened: the equality holds at the infinities too.

  The three frames are the generated ones (the reference's is its generated run with the results dropped); the
  idealization rewrote nothing, so `preserves` is `True`.
-/
import proofs.«116850_j90494960927208_1_alg».proof.Defs
import proofs.«116850_j90494960927208_1_alg».proof.Proof.Gen.Kernel
import proofs.«116850_j90494960927208_1_alg».proof.Proof.Gen.Kernel.Frame
import proofs.«116850_j90494960927208_1_alg».proof.Proof.Gen.KernelIdeal
import proofs.«116850_j90494960927208_1_alg».proof.Proof.Gen.KernelIdeal.Frame
import proofs.«116850_j90494960927208_1_alg».proof.Proof.Gen.ReferenceIdeal
import proofs.«116850_j90494960927208_1_alg».proof.Proof.Gen.ReferenceIdeal.Run
import proofs.«116850_j90494960927208_1_alg».proof.Proof.Gen.ReferenceIdeal.Read
import proofs.«116850_j90494960927208_1_alg».proof.Proof.Gen.Pre_finite_inputs
import proofs.«116850_j90494960927208_1_alg».proof.Proof.KernelWhole
import proofs.«116850_j90494960927208_1_alg».proof.Proof.LibRunBoth
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its generated run, with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end with the reference's result term of the kernel's arguments in their first result and the
    `rec_target` argument in their second. -/
theorem algebraic : Cert.algebraic_KernelIdeal_ReferenceIdeal := by
  intro m ρ m' ρ' _ hagree
  refine ⟨fun c => Cert.ReferenceIdeal.Read.val_main_v87 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)),
    fun c => m ((c.tc : Thread Cert.KernelIdeal.nD Cert.KernelIdeal.τ).loc Cert.KernelIdeal.main_arg2), ?_, ?_⟩
  · refine (θ_run Cert.KernelIdeal.defs _ _).mono (fun r h c => ⟨(h.1 c).1, (h.1 c).2, h.2 c⟩)
      (θ_run_both _ _ _ (Cert.KernelIdeal.Whole.run_values m ρ) (Cert.KernelIdeal.Gen.frame m ρ))
  · refine (θ_run Cert.ReferenceIdeal.defs _ _).mono (fun r h c => ?_) (Cert.ReferenceIdeal.Value.run (F := Ideal) m' ρ')
    obtain ⟨a0, a1, a2, a3, a4, a5, a6, a7, a8, a9, a10, a11, a12, a13, a14, a15, a16, a17, a18, a19⟩ := hagree c
    refine ⟨(h c).1.trans ?_, (h c).2.1.trans a2, (h c).2.2⟩
    rw [Cert.ReferenceIdeal.Read.val_main_v87_eq, a0, a1, a3, a4, a5, a6, a7, a8, a9, a10, a11, a12, a13, a14, a15, a16, a17, a18, a19]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
